-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S2048x2048 .f32) (main_arg2 : FVec F S2048x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S1x2048x2048 : Shape := ⟨3, ![1, 2048, 2048]⟩

abbrev nBuf : Space → Nat
  | .hbm => 8
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S1x2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | .local _ .vmem, ⟨6, _⟩ => ⟨S1024x2048, .f32⟩
  | .local _ .vmem, ⟨7, _⟩ => ⟨S1024x2048, .f32⟩
  | .local _ .vmem, ⟨8, _⟩ => ⟨S2048x512, .f32⟩
  | .local _ .vmem, ⟨9, _⟩ => ⟨S2048x512, .f32⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S2048x512, .bf16⟩
  | .local _ .vmem, ⟨15, _⟩ => ⟨S2048x512, .bf16⟩
  | .local _ .vmem, ⟨16, _⟩ => ⟨S1024x512, .f32⟩
  | .local _ .vmem, ⟨17, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S1024x2048_S1024x2048 : S1024x2048.ShapeCasts S1024x2048
  shapeCasts_S2048x512_S2048x512 : S2048x512.ShapeCasts S2048x512
  bcast_S2048x2048_S1x2048x2048_1_2 : S2048x2048.BroadcastsInDim S1x2048x2048 (![1, 2] : Fin 2 → Fin S1x2048x2048.rank)
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .f32 = 32 ∨ (Rect.block (s := S2048x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S2048x2048.size a
  hwx0_2 : ∀ i : grid0.Coords, EltTy.bits .bf16 = 32 ∨ (Rect.block (s := S2048x2048) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x2048.size a
  hwx1_0 : ∀ i : grid1.Coords, EltTy.bits .f32 = 32 ∨ (Rect.block (s := S2048x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x2048.size a
  hwx1_1 : ∀ i : grid1.Coords, EltTy.bits .f32 = 32 ∨ (Rect.block (s := S2048x2048) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S2048x2048.size a
  hwx1_2 : ∀ i : grid1.Coords, EltTy.bits .bf16 = 32 ∨ (Rect.block (s := S2048x2048) S1024x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S2048x2048.size a
  hwx2_0 : ∀ i : grid2.Coords, EltTy.bits .bf16 = 32 ∨ (Rect.block (s := S2048x2048) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S2048x2048.size a
  hwx2_1 : ∀ i : grid2.Coords, EltTy.bits .bf16 = 32 ∨ (Rect.block (s := S2048x2048) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S2048x2048.size a
  hwx2_2 : ∀ i : grid2.Coords, EltTy.bits .f32 = 32 ∨ (Rect.block (s := S2048x2048) S1024x512.size (cc2_transform_2 i) (hinb2_2 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg3) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2048x2048 : Shape := ⟨2, ![2048, 2048]⟩
abbrev S_ : Shape := ⟨0, ![]⟩
abbrev S1x2048x2048 : Shape := ⟨3, ![1, 2048, 2048]⟩
abbrev S256x512 : Shape := ⟨2, ![256, 512]⟩
abbrev S512x512 : Shape := ⟨2, ![512, 512]⟩

abbrev nBuf : Space → Nat
  | .hbm => 20
  | .vmem => 21
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .i32⟩
  | .hbm, ⟨5, _⟩ => ⟨S_, .f32⟩
  | .hbm, ⟨6, _⟩ => ⟨S2048x2048, .f32⟩
  | .hbm, ⟨7, _⟩ => ⟨S_, .i32⟩
  | .hbm, ⟨8, _⟩ => ⟨S_, .f32⟩
  | .hbm, ⟨9, _⟩ => ⟨S2048x2048, .f32⟩
  | .hbm, ⟨10, _⟩ => ⟨S_, .i32⟩
  | .hbm, ⟨11, _⟩ => ⟨S_, .f32⟩
  | .hbm, ⟨12, _⟩ => ⟨S2048x2048, .f32⟩
  | .hbm, ⟨13, _⟩ => ⟨S_, .i32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S1x2048x2048, .f32⟩
  | .local _ .vmem, ⟨0, _⟩ => ⟨S256x512, .f32⟩
  | .local _ .vmem, ⟨1, _⟩ => ⟨S256x512, .f32⟩
  | .local _ .vmem, ⟨2, _⟩ => ⟨S512x512, .f32⟩
  | .local _ .vmem, ⟨3, _⟩ => ⟨S512x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S512x512, .f32⟩
  | .local _ .vmem, ⟨10, _⟩ => ⟨S512x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S512x512, .f32⟩
  | .local _ .vmem, ⟨17, _⟩ => ⟨S512x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_c_0 : Ref sig .tc := ⟨.hbm, 7, rfl⟩
abbrev main_call0_call1_v0 : Ref sig .tc := ⟨.hbm, 8, rfl⟩
abbrev main_call0_v1 : Ref sig .tc := ⟨.hbm, 9, rfl⟩
abbrev main_call0_c_1 : Ref sig .tc := ⟨.hbm, 10, rfl⟩
abbrev main_call0_call2_v0 : Ref sig .tc := ⟨.hbm, 11, rfl⟩
abbrev main_call0_v2 : Ref sig .tc := ⟨.hbm, 12, rfl⟩
abbrev main_call0_c_2 : Ref sig .tc := ⟨.hbm, 13, rfl⟩
abbrev main_call0_call3_v0 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 4, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  pads_S2048x2048_S2048x2048_000_000 : S2048x2048.Pads (![0, 0] : Fin 2 → Nat) ![0, 0] ![0, 0] S2048x2048
  h_S_ : 0 < S_.numel
  bcast_S2048x2048_S1x2048x2048_1_2 : S2048x2048.BroadcastsInDim S1x2048x2048 (![1, 2] : Fin 2 → Fin S1x2048x2048.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x2048.size a
  hwx0_0 : ∀ i : grid0.Coords, EltTy.bits .f32 = 32 ∨ (Rect.block (s := S2048x2048) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x2048.size a
  hwx0_2 : ∀ i : grid0.Coords, EltTy.bits .f32 = 32 ∨ (Rect.block (s := S2048x2048) S256x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S2048x2048.size a
  hwx1_0 : ∀ i : grid1.Coords, EltTy.bits .f32 = 32 ∨ (Rect.block (s := S2048x2048) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S2048x2048.size a
  hwx1_1 : ∀ i : grid1.Coords, EltTy.bits .f32 = 32 ∨ (Rect.block (s := S2048x2048) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S2048x2048.size a
  hwx1_2 : ∀ i : grid1.Coords, EltTy.bits .f32 = 32 ∨ (Rect.block (s := S2048x2048) S256x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S2048x2048.size a
  hwx2_0 : ∀ i : grid2.Coords, EltTy.bits .f32 = 32 ∨ (Rect.block (s := S2048x2048) S256x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S2048x2048.size a
  hwx2_1 : ∀ i : grid2.Coords, EltTy.bits .f32 = 32 ∨ (Rect.block (s := S2048x2048) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S2048x2048.size a
  hwx2_2 : ∀ i : grid2.Coords, EltTy.bits .f32 = 32 ∨ (Rect.block (s := S2048x2048) S256x512.size (cc2_transform_2 i) (hinb2_2 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_call0_v1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v2) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v5) S256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v3) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v5) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v6) S256x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== Proof.Spec.lean ====
/-
  The mathematics both programs compute, stated once over the extended reals with no program in sight.

  A 2048 x 2048 array is read as a matrix through its two coordinates; `MM a b` is the matrix product, entry (p, q) being the
  sum over k of a(p, k) * b(k, q); `lift1` puts a leading axis of extent one in front. The kernel multiplies the four weights
  as a balanced tree, (w3 w2)(w1 w0); the reference multiplies them from the right, w3 (w2 (w1 w0)). Over the reals the
  matrix product is associative, so the two agree wherever every entry of every weight is a real number (`chain_assoc`);
  on the extended reals the law can fail at infinities, which is why the entries are asked to be real.
-/
import Idealize.ShloMosaic.PureOps.Ideal
import Idealize.ShloMosaic.Lib.ValueIdx

noncomputable section

open scoped BigOperators

namespace Cert.Spec

open Idealize.ShloMosaic Idealize.ShloMosaic.ValueIdx

/-- The shape of a weight and of every intermediate product. -/
abbrev Sq : Shape := ⟨2, ![2048, 2048]⟩
/-- The shape of the result: a leading axis of extent one. -/
abbrev Sq1 : Shape := ⟨3, ![1, 2048, 2048]⟩

/-- The matrix product on coordinates: entry (p, q) is the sum over k of a(p, k) * b(k, q). -/
def mm (a b : Fin 2048 → Fin 2048 → EReal) (p q : Fin 2048) : EReal := ∑ k : Fin 2048, a p k * b k q

/-- An array read as a matrix through its two coordinates. -/
def toM (a : Sq.Idx → EReal) : Fin 2048 → Fin 2048 → EReal := fun p q => a (ix2 p q)

/-- The matrix product of two arrays, as an array. -/
def MM (a b : Sq.Idx → EReal) : Sq.Idx → EReal :=
  fun i => mm (toM a) (toM b) ⟨(i 0).val, idx2_lt0 i⟩ ⟨(i 1).val, idx2_lt1 i⟩

/-- The product read at coordinates. -/
theorem MM_ix2 (a b : Sq.Idx → EReal) (p q : Fin 2048) :
    MM a b (ix2 p q) = ∑ k : Fin 2048, a (ix2 p k) * b (ix2 k q) := rfl

/-- A leading axis of extent one in front of a matrix. -/
def lift1 (a : Sq.Idx → EReal) : Sq1.Idx → EReal :=
  fun i => a (ix2 (⟨(i 1).val, (i 1).isLt⟩ : Fin 2048) (⟨(i 2).val, (i 2).isLt⟩ : Fin 2048))

theorem lift1_ix3 (a : Sq.Idx → EReal) (z : Fin 1) (p q : Fin 2048) : lift1 a (ix3 z p q) = a (ix2 p q) := rfl

/-- Every entry is a real number (neither infinity). -/
def AllReal (a : Sq.Idx → EReal) : Prop := ∀ i, ∃ r : ℝ, a i = (r : EReal)

/-- The coercion from the reals passes through a finite sum. -/
theorem coe_sum {ι : Type} (s : Finset ι) (f : ι → ℝ) :
    ((∑ k ∈ s, f k : ℝ) : EReal) = ∑ k ∈ s, (f k : EReal) := by
  classical
  induction s using Finset.induction_on with
  | empty => rw [Finset.sum_empty, Finset.sum_empty, EReal.coe_zero]
  | insert a s ha ih => rw [Finset.sum_insert ha, Finset.sum_insert ha, EReal.coe_add, ih]

/-- The matrix product over the reals, on any finite index type. -/
def mmR {ι : Type} [Fintype ι] (a b : ι → ι → ℝ) (p q : ι) : ℝ := ∑ k : ι, a p k * b k q

/-- Over the reals the matrix product is associative. -/
theorem mmR_assoc {ι : Type} [Fintype ι] (a b c : ι → ι → ℝ) : mmR (mmR a b) c = mmR a (mmR b c) := by
  funext p q
  show ∑ k : ι, (∑ j : ι, a p j * b j k) * c k q = ∑ j : ι, a p j * ∑ k : ι, b j k * c k q
  simp only [Finset.sum_mul, Finset.mul_sum]
  rw [Finset.sum_comm]
  exact Finset.sum_congr rfl fun j _ => Finset.sum_congr rfl fun k _ => mul_assoc _ _ _

/-- A real matrix read as a matrix of extended reals. -/
def cM (a : Fin 2048 → Fin 2048 → ℝ) : Fin 2048 → Fin 2048 → EReal := fun p q => (a p q : EReal)

/-- The product of two real matrices, taken on the extended reals, is their real product. -/
theorem mm_cM (a b : Fin 2048 → Fin 2048 → ℝ) : mm (cM a) (cM b) = cM (mmR a b) := by
  funext p q
  show ∑ k : Fin 2048, (a p k : EReal) * (b k q : EReal) = ((∑ k : Fin 2048, a p k * b k q : ℝ) : EReal)
  rw [coe_sum]
  exact Finset.sum_congr rfl fun k _ => (EReal.coe_mul _ _).symm

/-- The matrix of a product of arrays is the product of their matrices. -/
theorem toM_MM (a b : Sq.Idx → EReal) : toM (MM a b) = mm (toM a) (toM b) := rfl

/-- An array of real entries is, as a matrix, a real matrix. -/
theorem toM_of_allReal (a : Sq.Idx → EReal) (h : AllReal a) : ∃ r : Fin 2048 → Fin 2048 → ℝ, toM a = cM r := by
  choose r hr using h
  exact ⟨fun p q => r (ix2 p q), funext fun p => funext fun q => hr (ix2 p q)⟩

/-- THE LAW that joins the two programs: on matrices of real entries the balanced tree of products is the product taken
    from the right. -/
theorem chain_assoc (w0 w1 w2 w3 : Sq.Idx → EReal) (h0 : AllReal w0) (h1 : AllReal w1) (h2 : AllReal w2) (h3 : AllReal w3) :
    MM (MM w3 w2) (MM w1 w0) = MM w3 (MM w2 (MM w1 w0)) := by
  obtain ⟨a0, e0⟩ := toM_of_allReal w0 h0
  obtain ⟨a1, e1⟩ := toM_of_allReal w1 h1
  obtain ⟨a2, e2⟩ := toM_of_allReal w2 h2
  obtain ⟨a3, e3⟩ := toM_of_allReal w3 h3
  funext i
  show mm (toM (MM w3 w2)) (toM (MM w1 w0)) _ _ = mm (toM w3) (toM (MM w2 (MM w1 w0))) _ _
  rw [toM_MM, toM_MM, toM_MM, toM_MM, e0, e1, e2, e3]
  simp only [mm_cM]
  rw [mmR_assoc]

end Cert.Spec

end
-- ==== Proof.Finite.lean ====
/-
  From the precondition to real entries. The precondition says, of each of the four weights, that the absolute value of
  every entry is below plus infinity; on the extended reals an entry whose absolute value is below plus infinity is
  neither infinity, so it is a real number.
-/
import proofs.«155047_g2000509712423811_pallasbulk_371_2_alg».proof.Proof.Gen.Pre_finite_inputs
import proofs.«155047_g2000509712423811_pallasbulk_371_2_alg».proof.Proof.Spec
import Idealize.ShloMosaic.Lib.ReduceAll

noncomputable section

namespace Cert.Finite

open Idealize.ShloMosaic Idealize.ShloMosaic.ValueIdx

/-- The result of a reduction over both axes has one index. -/
instance : Subsingleton Cert.Pre_finite_inputs.S_.Idx := ⟨fun a b => funext fun d => d.elim0⟩

/-- The word 0x7F800000 is plus infinity. -/
theorem inf_word : Ideal.ofBits .f32 0x7F800000#32 = (⊤ : EReal) := by simp [Ideal.ofBits, Ideal.ieee]

/-- An extended real whose absolute value compares below plus infinity is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- One weight: where the and-reduction of "absolute value below plus infinity" over both axes is 1, every entry is real. -/
theorem allReal_of_all [Cert.Pre_finite_inputs.Facts] (x : FVec Ideal Cert.Pre_finite_inputs.S2048x2048 .f32)
    (init : IVec Cert.Pre_finite_inputs.S_ 1)
    (e : Host.reduce IntOp.andi
          (cmpf .olt (Host.absf x)
            (broadcastInDim Cert.Pre_finite_inputs.S2048x2048 ![] Cert.Pre_finite_inputs.Facts.bcast_S_S2048x2048
              (constant (F := Ideal) Cert.Pre_finite_inputs.S_ .f32 0x7F800000#32)))
          init Cert.Pre_finite_inputs.Facts.reducesTo_S2048x2048_S_d0_1 Cert.Pre_finite_inputs.Facts.h_S_ ValueIdx.ix0 = 1#1) :
    Cert.Spec.AllReal x := by
  intro i
  have hi := Host.reduce_andi_all _ _ _ _ _ e i
  exact real_of_abs_lt (x i) hi

/-- Where the precondition holds, every entry of every weight is a real number. -/
theorem allReal_of_pre [Cert.Pre_finite_inputs.Facts]
    (x0 x1 x2 x3 : FVec Ideal Cert.Pre_finite_inputs.S2048x2048 .f32)
    (h : Cert.Pre_finite_inputs.fn (F := Ideal) x0 x1 x2 x3 = fun _ => 1#1) :
    Cert.Spec.AllReal x0 ∧ Cert.Spec.AllReal x1 ∧ Cert.Spec.AllReal x2 ∧ Cert.Spec.AllReal x3 := by
  have h' := congrFun h ValueIdx.ix0
  dsimp only [Cert.Pre_finite_inputs.fn, Cert.Pre_finite_inputs.fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨allReal_of_all x0 _ h0, allReal_of_all x1 _ h1, allReal_of_all x2 _ h2, allReal_of_all x3 _ h3⟩

end Cert.Finite

end
-- ==== Proof.KValue.lean ====
/-
  What the kernel's three regions leave, at the ideal instance. Each region multiplies a row band of its left operand
  (1024 rows, all 2048 columns) by a column band of its right operand (all 2048 rows, 512 columns) and stores the
  1024 x 512 product as the block (i, j) of its output; the eight blocks tile the output, so the output array is the
  matrix product of the two operand arrays. Changes of float format are the identity on the extended reals.
-/
import proofs.«155047_g2000509712423811_pallasbulk_371_2_alg».proof.Proof.Gen.KernelIdeal.Frame
import proofs.«155047_g2000509712423811_pallasbulk_371_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

open scoped BigOperators

/-! ## The body's product at an index

  The three bodies contract axis 1 of the left block with axis 0 of the right block into the zero accumulator. At an output
  index (p, q) and contraction position k the left operand is read at (p, k) and the right operand at (k, q); the format
  changes around the product are the identity on the extended reals. -/

/-- Axis 0 of the left operand's index is the output's row. -/
theorem lhs_mm_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl

/-- Axis 1 of the left operand's index is the contraction position. -/
theorem lhs_mm_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q

/-- Axis 0 of the right operand's index is the contraction position. -/
theorem rhs_mm_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q

/-- Axis 1 of the right operand's index is the output's column. -/
theorem rhs_mm_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The product of a 1024 x 2048 block by a 2048 x 512 block into the zero accumulator, read at (p, q). -/
theorem matmul_at {φ₁ φ₂ : FTy} (x0 : FVec Ideal S1024x2048 φ₁) (x1 : FVec Ideal S2048x512 φ₂) (p : Fin 1024) (q : Fin 512) :
    matmul (F := Ideal) dot_S1024x2048_S2048x512_S1024x512_1_0_0_1_n_n none x0 x1 (constant (F := Ideal) S1024x512 .f32 0x00000000#32) (ix2 p q)
      = ∑ k : Fin 2048, x0 (ix2 p k) * x1 (ix2 k q) := by
  refine (Ideal.matmul_constant_zero_apply dot_S1024x2048_S2048x512_S1024x512_1_0_0_1_n_n none x0 x1 (ix2 p q)).trans ?_
  rw [← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p q) ((contrEquiv1 dot_S1024x2048_S2048x512_S1024x512_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S1024x2048_S2048x512_S1024x512_1_0_0_1_n_n.rhsIdx (ix2 p q) ((contrEquiv1 dot_S1024x2048_S2048x512_S1024x512_1_0_0_1_n_n 2048 rfl rfl).symm k) = ix2 k q := funext fun a => Fin.ext (by
    match a with
    | ⟨0, _⟩ => exact (rhs_mm_0 _ _).trans hk
    | ⟨1, _⟩ => exact rhs_mm_1 _ _)
  rw [el, er]

/-- Regions 0 and 1: the body's value at (p, q) of its output block. -/
theorem pay0_at (x0 : Vec Ideal S1024x2048 .f32) (x1 : Vec Ideal S2048x512 .f32) (p : Fin 1024) (q : Fin 512) :
    k0_pay1 (F := Ideal) x0 x1 (ix2 p q) = ∑ k : Fin 2048, x0 (ix2 p k) * x1 (ix2 k q) := by
  unfold k0_pay1
  exact matmul_at _ _ p q

/-- The same body in region 1. -/
theorem pay1_at (x0 : Vec Ideal S1024x2048 .f32) (x1 : Vec Ideal S2048x512 .f32) (p : Fin 1024) (q : Fin 512) :
    k1_pay1 (F := Ideal) x0 x1 (ix2 p q) = ∑ k : Fin 2048, x0 (ix2 p k) * x1 (ix2 k q) := by
  unfold k1_pay1
  exact matmul_at _ _ p q

/-- Region 2: the operands are recast to their own shapes instead of narrowed, the product is stored as it is. -/
theorem pay2_at (x0 : Vec Ideal S1024x2048 .bf16) (x1 : Vec Ideal S2048x512 .bf16) (p : Fin 1024) (q : Fin 512) :
    k2_pay1 (F := Ideal) x0 x1 (ix2 p q) = ∑ k : Fin 2048, x0 (ix2 p k) * x1 (ix2 k q) := by
  unfold k2_pay1
  rw [shapeCast_self, shapeCast_self]
  exact matmul_at _ _ p q

/-! ## From blocks to the array

  A point of the 2 x 4 grid with output block index (i, j) reads rows [1024 i, 1024 i + 1024) of the left operand with all 2048
  columns and columns [512 j, 512 j + 512) of the right operand with all 2048 rows, and writes rows [1024 i, 1024 i + 1024), columns
  [512 j, 512 j + 512) of the output. Every (i, j) with i < 2, j < 4 is some point's, so the blocks cover the 2048 x 2048 output. -/

/-- The zero offsets, as the constant function. -/
theorem hz : (![0, 0] : Fin 2 → Nat) = fun _ => 0 := funext fun a => by fin_cases a <;> rfl

/-! ## Region 0 -/

/-- The printed index maps of region 0, decided over its eight points: the left window follows the output's row block at column
    block 0, the right window follows the output's column block at row block 0; the output's block indices stay in range. -/
theorem idx_facts0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 1
    ∧ win0_2.index t (1 : Fin 2) ≤ 3 :=
  (by decide +kernel : ∀ t : Fin grid0.N, _)

/-- Every block of the output is some point's. -/
theorem idx_onto0 : ∀ (q0 : Fin 2) (q1 : Fin 4), ∃ t : Fin cfg0.N, win0_2.index t = ![q0.val, q1.val] :=
  (by decide +kernel : ∀ (q0 : Fin 2) (q1 : Fin 4), ∃ t : Fin grid0.N, win0_2.index t = ![q0.val, q1.val])

/-- A row band times a column band, read at (p, q), is the product of the arrays at the row and column the bands put there. -/
theorem band_prod0 (A B : Cert.Spec.Sq.Idx → EReal) (x0 : Vec Ideal S1024x2048 .f32) (x1 : Vec Ideal S2048x512 .f32)
    (p : Fin 1024) (q : Fin 512) (R C : Fin 2048)
    (h0 : ∀ k : Fin 2048, x0 (ix2 p k) = A (ix2 R k)) (h1 : ∀ k : Fin 2048, x1 (ix2 k q) = B (ix2 k C)) :
    k0_pay1 (F := Ideal) x0 x1 (ix2 p q) = Cert.Spec.MM A B (ix2 R C) := by
  rw [pay0_at, Cert.Spec.MM_ix2]
  exact Finset.sum_congr rfl fun k _ => by rw [h0 k, h1 k]

/-- What point t writes back is block t of the product of the two operand arrays. -/
theorem flushed0_eq (c : Dev nD) (t : Fin cfg0.N) :
    (dat0 (F := Ideal) V c).flushed 2 t
      = ((cfg0.win 2).blk t).view.read (Elt Ideal) (Cert.Spec.MM (V c main_arg3) (V c main_arg2)) := by
  show (cfg0.win 2).cut (grid0.coords t) ((dat0 (F := Ideal) V c).after 2 t) = _
  rw [after0_2]
  unfold out0_2
  rw [View.canon_unit_zero hz]
  simp only [View.ld_unit_zero (S := S1024x2048) hz, View.ld_unit_zero (S := S2048x512) hz]
  obtain ⟨e0, e1, e2, e3, e4, e5⟩ := idx_facts0 t
  funext j
  have hj0 : (j 0).val < 1024 := (j 0).isLt
  have hj1 : (j 1).val < 512 := (j 1).isLt
  have hL : (cfg0.win 2).xinj (grid0.coords t) j = ix2 (⟨(j 0).val, hj0⟩ : Fin 1024) (⟨(j 1).val, hj1⟩ : Fin 512) :=
    funext fun a => by match a with | ⟨0, _⟩ => rfl | ⟨1, _⟩ => rfl
  have hR : ((cfg0.win 2).blk t).view.emb j
      = ix2 (⟨win0_2.index t (0 : Fin 2) * 1024 + (j 0).val, by omega⟩ : Fin 2048) (⟨win0_2.index t (1 : Fin 2) * 512 + (j 1).val, by omega⟩ : Fin 2048) :=
    funext fun a => Fin.ext (by
      match a with
      | ⟨0, _⟩ => show win0_2.index t (0 : Fin 2) * 1024 + 1 * (j 0).val = win0_2.index t (0 : Fin 2) * 1024 + (j 0).val; omega
      | ⟨1, _⟩ => show win0_2.index t (1 : Fin 2) * 512 + 1 * (j 1).val = win0_2.index t (1 : Fin 2) * 512 + (j 1).val; omega)
  show k0_pay1 (F := Ideal) (iblk0 V c 0 t) (iblk0 V c 1 t) ((cfg0.win 2).xinj (grid0.coords t) j)
    = Cert.Spec.MM (V c main_arg3) (V c main_arg2) (((cfg0.win 2).blk t).view.emb j)
  rw [hL, hR]
  refine band_prod0 (V c main_arg3) (V c main_arg2) (iblk0 V c 0 t) (iblk0 V c 1 t) _ _ _ _ (fun k => ?_) (fun k => ?_)
  · show V c main_arg3 (((cfg0.win 0).blk t).view.emb (ix2 (⟨(j 0).val, hj0⟩ : Fin 1024) k)) = V c main_arg3 (ix2 _ k)
    refine congrArg (V c main_arg3) (funext fun a => Fin.ext ?_)
    match a with
    | ⟨0, _⟩ => show win0_0.index t (0 : Fin 2) * 1024 + 1 * (j 0).val = win0_2.index t (0 : Fin 2) * 1024 + (j 0).val; omega
    | ⟨1, _⟩ => show win0_0.index t (1 : Fin 2) * 2048 + 1 * k.val = k.val; omega
  · show V c main_arg2 (((cfg0.win 1).blk t).view.emb (ix2 k (⟨(j 1).val, hj1⟩ : Fin 512))) = V c main_arg2 (ix2 k _)
    refine congrArg (V c main_arg2) (funext fun a => Fin.ext ?_)
    match a with
    | ⟨0, _⟩ => show win0_1.index t (0 : Fin 2) * 2048 + 1 * k.val = k.val; omega
    | ⟨1, _⟩ => show win0_1.index t (1 : Fin 2) * 512 + 1 * (j 1).val = win0_2.index t (1 : Fin 2) * 512 + (j 1).val; omega

/-- An index of the output array is in point t's block iff each coordinate is in the block's range on its axis. -/
theorem mem_blk0 (t : Fin cfg0.N) (i : S2048x2048.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- The eight blocks tile the output array: the point that covers (r, q) has block index (r / 1024, q / 512). -/
theorem cover0 (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := idx_onto0 ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- Region 0 leaves in its output array the product of its two operand arrays. -/
theorem arr0 (c : Dev nD) :
    (dat0 (F := Ideal) V c).arrAt 2 cfg0.N = Cert.Spec.MM (V c main_arg3) (V c main_arg2) :=
  (dat0 (F := Ideal) V c).arrAt_eq_of_cover 2 (Cert.Spec.MM (V c main_arg3) (V c main_arg2)) (fun t _ => flushed0_eq V c t) cover0

/-! ## Region 1 -/

/-- The printed index maps of region 1, decided over its eight points: the left window follows the output's row block at column
    block 0, the right window follows the output's column block at row block 0; the output's block indices stay in range. -/
theorem idx_facts1 : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 1
    ∧ win1_2.index t (1 : Fin 2) ≤ 3 :=
  (by decide +kernel : ∀ t : Fin grid1.N, _)

/-- Every block of the output is some point's. -/
theorem idx_onto1 : ∀ (q0 : Fin 2) (q1 : Fin 4), ∃ t : Fin cfg1.N, win1_2.index t = ![q0.val, q1.val] :=
  (by decide +kernel : ∀ (q0 : Fin 2) (q1 : Fin 4), ∃ t : Fin grid1.N, win1_2.index t = ![q0.val, q1.val])

/-- A row band times a column band, read at (p, q), is the product of the arrays at the row and column the bands put there. -/
theorem band_prod1 (A B : Cert.Spec.Sq.Idx → EReal) (x0 : Vec Ideal S1024x2048 .f32) (x1 : Vec Ideal S2048x512 .f32)
    (p : Fin 1024) (q : Fin 512) (R C : Fin 2048)
    (h0 : ∀ k : Fin 2048, x0 (ix2 p k) = A (ix2 R k)) (h1 : ∀ k : Fin 2048, x1 (ix2 k q) = B (ix2 k C)) :
    k1_pay1 (F := Ideal) x0 x1 (ix2 p q) = Cert.Spec.MM A B (ix2 R C) := by
  rw [pay1_at, Cert.Spec.MM_ix2]
  exact Finset.sum_congr rfl fun k _ => by rw [h0 k, h1 k]

/-- What point t writes back is block t of the product of the two operand arrays. -/
theorem flushed1_eq (c : Dev nD) (t : Fin cfg1.N) :
    (dat1 (F := Ideal) V c).flushed 2 t
      = ((cfg1.win 2).blk t).view.read (Elt Ideal) (Cert.Spec.MM (V c main_arg1) (V c main_arg0)) := by
  show (cfg1.win 2).cut (grid1.coords t) ((dat1 (F := Ideal) V c).after 2 t) = _
  rw [after1_2]
  unfold out1_2
  rw [View.canon_unit_zero hz]
  simp only [View.ld_unit_zero (S := S1024x2048) hz, View.ld_unit_zero (S := S2048x512) hz]
  obtain ⟨e0, e1, e2, e3, e4, e5⟩ := idx_facts1 t
  funext j
  have hj0 : (j 0).val < 1024 := (j 0).isLt
  have hj1 : (j 1).val < 512 := (j 1).isLt
  have hL : (cfg1.win 2).xinj (grid1.coords t) j = ix2 (⟨(j 0).val, hj0⟩ : Fin 1024) (⟨(j 1).val, hj1⟩ : Fin 512) :=
    funext fun a => by match a with | ⟨0, _⟩ => rfl | ⟨1, _⟩ => rfl
  have hR : ((cfg1.win 2).blk t).view.emb j
      = ix2 (⟨win1_2.index t (0 : Fin 2) * 1024 + (j 0).val, by omega⟩ : Fin 2048) (⟨win1_2.index t (1 : Fin 2) * 512 + (j 1).val, by omega⟩ : Fin 2048) :=
    funext fun a => Fin.ext (by
      match a with
      | ⟨0, _⟩ => show win1_2.index t (0 : Fin 2) * 1024 + 1 * (j 0).val = win1_2.index t (0 : Fin 2) * 1024 + (j 0).val; omega
      | ⟨1, _⟩ => show win1_2.index t (1 : Fin 2) * 512 + 1 * (j 1).val = win1_2.index t (1 : Fin 2) * 512 + (j 1).val; omega)
  show k1_pay1 (F := Ideal) (iblk1 V c 0 t) (iblk1 V c 1 t) ((cfg1.win 2).xinj (grid1.coords t) j)
    = Cert.Spec.MM (V c main_arg1) (V c main_arg0) (((cfg1.win 2).blk t).view.emb j)
  rw [hL, hR]
  refine band_prod1 (V c main_arg1) (V c main_arg0) (iblk1 V c 0 t) (iblk1 V c 1 t) _ _ _ _ (fun k => ?_) (fun k => ?_)
  · show V c main_arg1 (((cfg1.win 0).blk t).view.emb (ix2 (⟨(j 0).val, hj0⟩ : Fin 1024) k)) = V c main_arg1 (ix2 _ k)
    refine congrArg (V c main_arg1) (funext fun a => Fin.ext ?_)
    match a with
    | ⟨0, _⟩ => show win1_0.index t (0 : Fin 2) * 1024 + 1 * (j 0).val = win1_2.index t (0 : Fin 2) * 1024 + (j 0).val; omega
    | ⟨1, _⟩ => show win1_0.index t (1 : Fin 2) * 2048 + 1 * k.val = k.val; omega
  · show V c main_arg0 (((cfg1.win 1).blk t).view.emb (ix2 k (⟨(j 1).val, hj1⟩ : Fin 512))) = V c main_arg0 (ix2 k _)
    refine congrArg (V c main_arg0) (funext fun a => Fin.ext ?_)
    match a with
    | ⟨0, _⟩ => show win1_1.index t (0 : Fin 2) * 2048 + 1 * k.val = k.val; omega
    | ⟨1, _⟩ => show win1_1.index t (1 : Fin 2) * 512 + 1 * (j 1).val = win1_2.index t (1 : Fin 2) * 512 + (j 1).val; omega

/-- An index of the output array is in point t's block iff each coordinate is in the block's range on its axis. -/
theorem mem_blk1 (t : Fin cfg1.N) (i : S2048x2048.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v1).slice (win1_2.rect t)).set ↔ _
  rw [View.set_slice_whole, Rect.mem_set_unit]
  exact Iff.rfl

/-- The eight blocks tile the output array: the point that covers (r, q) has block index (r / 1024, q / 512). -/
theorem cover1 (i : S2048x2048.Idx) :
    ∃ t : Fin cfg1.N, (cfg1.win 2).flush t = true ∧ i ∈ ((cfg1.win 2).blk t).view.set := by
  have hi0 : (i 0).val < 2048 := (i 0).isLt
  have hi1 : (i 1).val < 2048 := (i 1).isLt
  obtain ⟨t, ht⟩ := idx_onto1 ⟨(i 0).val / 1024, by omega⟩ ⟨(i 1).val / 512, by omega⟩
  have q0 : win1_2.index t (0 : Fin 2) = (i 0).val / 1024 := congrFun ht 0
  have q1 : win1_2.index t (1 : Fin 2) = (i 1).val / 512 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 512 ≤ (i 1).val ∧ (i 1).val < win1_2.index t (1 : Fin 2) * 512 + 512; omega

/-- Region 1 leaves in its output array the product of its two operand arrays. -/
theorem arr1 (c : Dev nD) :
    (dat1 (F := Ideal) V c).arrAt 2 cfg1.N = Cert.Spec.MM (V c main_arg1) (V c main_arg0) :=
  (dat1 (F := Ideal) V c).arrAt_eq_of_cover 2 (Cert.Spec.MM (V c main_arg1) (V c main_arg0)) (fun t _ => flushed1_eq V c t) cover1

/-! ## Region 2 -/

/-- The printed index maps of region 2, decided over its eight points: the left window follows the output's row block at column
    block 0, the right window follows the output's column block at row block 0; the output's block indices stay in range. -/
theorem idx_facts2 : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 1
    ∧ win2_2.index t (1 : Fin 2) ≤ 3 :=
  (by decide +kernel : ∀ t : Fin grid2.N, _)

/-- Every block of the output is some point's. -/
theorem idx_onto2 : ∀ (q0 : Fin 2) (q1 : Fin 4), ∃ t : Fin cfg2.N, win2_2.index t = ![q0.val, q1.val] :=
  (by decide +kernel : ∀ (q0 : Fin 2) (q1 : Fin 4), ∃ t : Fin grid2.N, win2_2.index t = ![q0.val, q1.val])

/-- A row band times a column band, read at (p, q), is the product of the arrays at the row and column the bands put there. -/
theorem band_prod2 (A B : Cert.Spec.Sq.Idx → EReal) (x0 : Vec Ideal S1024x2048 .bf16) (x1 : Vec Ideal S2048x512 .bf16)
    (p : Fin 1024) (q : Fin 512) (R C : Fin 2048)
    (h0 : ∀ k : Fin 2048, x0 (ix2 p k) = A (ix2 R k)) (h1 : ∀ k : Fin 2048, x1 (ix2 k q) = B (ix2 k C)) :
    k2_pay1 (F := Ideal) x0 x1 (ix2 p q) = Cert.Spec.MM A B (ix2 R C) := by
  rw [pay2_at, Cert.Spec.MM_ix2]
  exact Finset.sum_congr rfl fun k _ => by rw [h0 k, h1 k]

/-- What point t writes back is block t of the product of the two operand arrays. -/
theorem flushed2_eq (c : Dev nD) (t : Fin cfg2.N) :
    (dat2 (F := Ideal) V c).flushed 2 t
      = ((cfg2.win 2).blk t).view.read (Elt Ideal) (Cert.Spec.MM (V c main_v0) (V c main_v1)) := by
  show (cfg2.win 2).cut (grid2.coords t) ((dat2 (F := Ideal) V c).after 2 t) = _
  rw [after2_2]
  unfold out2_2
  rw [View.canon_unit_zero hz]
  simp only [View.ld_unit_zero (S := S1024x2048) hz, View.ld_unit_zero (S := S2048x512) hz]
  obtain ⟨e0, e1, e2, e3, e4, e5⟩ := idx_facts2 t
  funext j
  have hj0 : (j 0).val < 1024 := (j 0).isLt
  have hj1 : (j 1).val < 512 := (j 1).isLt
  have hL : (cfg2.win 2).xinj (grid2.coords t) j = ix2 (⟨(j 0).val, hj0⟩ : Fin 1024) (⟨(j 1).val, hj1⟩ : Fin 512) :=
    funext fun a => by match a with | ⟨0, _⟩ => rfl | ⟨1, _⟩ => rfl
  have hR : ((cfg2.win 2).blk t).view.emb j
      = ix2 (⟨win2_2.index t (0 : Fin 2) * 1024 + (j 0).val, by omega⟩ : Fin 2048) (⟨win2_2.index t (1 : Fin 2) * 512 + (j 1).val, by omega⟩ : Fin 2048) :=
    funext fun a => Fin.ext (by
      match a with
      | ⟨0, _⟩ => show win2_2.index t (0 : Fin 2) * 1024 + 1 * (j 0).val = win2_2.index t (0 : Fin 2) * 1024 + (j 0).val; omega
      | ⟨1, _⟩ => show win2_2.index t (1 : Fin 2) * 512 + 1 * (j 1).val = win2_2.index t (1 : Fin 2) * 512 + (j 1).val; omega)
  show k2_pay1 (F := Ideal) (iblk2 V c 0 t) (iblk2 V c 1 t) ((cfg2.win 2).xinj (grid2.coords t) j)
    = Cert.Spec.MM (V c main_v0) (V c main_v1) (((cfg2.win 2).blk t).view.emb j)
  rw [hL, hR]
  refine band_prod2 (V c main_v0) (V c main_v1) (iblk2 V c 0 t) (iblk2 V c 1 t) _ _ _ _ (fun k => ?_) (fun k => ?_)
  · show V c main_v0 (((cfg2.win 0).blk t).view.emb (ix2 (⟨(j 0).val, hj0⟩ : Fin 1024) k)) = V c main_v0 (ix2 _ k)
    refine congrArg (V c main_v0) (funext fun a => Fin.ext ?_)
    match a with
    | ⟨0, _⟩ => show win2_0.index t (0 : Fin 2) * 1024 + 1 * (j 0).val = win2_2.index t (0 : Fin 2) * 1024 + (j 0).val; omega
    | ⟨1, _⟩ => show win2_0.index t (1 : Fin 2) * 2048 + 1 * k.val = k.val; omega
  · show V c main_v1 (((cfg2.win 1).blk t).view.emb (ix2 k (⟨(j 1).val, hj1⟩ : Fin 512))) = V c main_v1 (ix2 k _)
    refine congrArg (V c main_v1) (funext fun a => Fin.ext ?_)
    match a with
    | ⟨0, _⟩ => show win2_1.index t (0 : Fin 2) * 2048 + 1 * k.val = k.val; omega
    | ⟨1, _⟩ => show win2_1.index t (1 : Fin 2) * 512 + 1 * (j 1).val = win2_2.index t (1 : Fin 2) * 512 + (j 1).val; omega

/-- An index of the output array is in point t's block iff each coordinate is in the block's range on its axis. -/
theorem mem_blk2 (t : Fin cfg2.N) (i : S2048x2048.Idx) :
    i ∈ ((cfg2.win 2).blk t).view.set ↔ ∀ a : Fin 2, win2_2.index t a * S1024x512.size a ≤ (i a).val ∧ (i a).val < win2_2.index t a * S1024x512.size a + S1024x512.size a := by
  show i ∈ ((View.whole main_v2).slice (win2_2.rect t)).set ↔ _
  rw [View.set_slice_whole, Rect.mem_set_unit]
  exact Iff.rfl

/-- The eight blocks tile the output array: the point that covers (r, q) has block index (r / 1024, q / 512). -/
theorem cover2 (i : S2048x2048.Idx) :
    ∃ t : Fin cfg2.N, (cfg2.win 2).flush t = true ∧ i ∈ ((cfg2.win 2).blk t).view.set := by
  have hi0 : (i 0).val < 2048 := (i 0).isLt
  have hi1 : (i 1).val < 2048 := (i 1).isLt
  obtain ⟨t, ht⟩ := idx_onto2 ⟨(i 0).val / 1024, by omega⟩ ⟨(i 1).val / 512, by omega⟩
  have q0 : win2_2.index t (0 : Fin 2) = (i 0).val / 1024 := congrFun ht 0
  have q1 : win2_2.index t (1 : Fin 2) = (i 1).val / 512 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 512 ≤ (i 1).val ∧ (i 1).val < win2_2.index t (1 : Fin 2) * 512 + 512; omega

/-- Region 2 leaves in its output array the product of its two operand arrays. -/
theorem arr2 (c : Dev nD) :
    (dat2 (F := Ideal) V c).arrAt 2 cfg2.N = Cert.Spec.MM (V c main_v0) (V c main_v1) :=
  (dat2 (F := Ideal) V c).arrAt_eq_of_cover 2 (Cert.Spec.MM (V c main_v0) (V c main_v1)) (fun t _ => flushed2_eq V c t) cover2

end Cert.KernelIdeal.Hand

end
-- ==== Proof.KComp.lean ====
/-
  The kernel's result as one function of the four weights. Region 0 leaves the product w3 w2 in its output array, region 1
  the product w1 w0 in its own (and leaves region 0's alone), region 2 the product of those two; the closing host
  operation puts a leading axis of extent one in front. So the result is lift1 ((w3 w2)(w1 w0)).
-/
import proofs.«155047_g2000509712423811_pallasbulk_371_2_alg».proof.Proof.KRun
import proofs.«155047_g2000509712423811_pallasbulk_371_2_alg».proof.Proof.KValue
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- A matrix broadcast to a leading axis of extent one reads the matrix at the two trailing coordinates. -/
theorem bcast_lift1 (a : Cert.Spec.Sq.Idx → EReal) :
    (broadcastInDim S1x2048x2048 ![1, 2] Facts₀.bcast_S2048x2048_S1x2048x2048_1_2 a : S1x2048x2048.Idx → EReal) = Cert.Spec.lift1 a := by
  funext i
  obtain ⟨z, p, q, rfl⟩ : ∃ (z : Fin 1) (p q : Fin 2048), i = ix3 z p q := ⟨i 0, i 1, i 2, eq_ix3 i⟩
  rw [Cert.Spec.lift1_ix3]
  exact broadcastInDim_apply _ _ a (ix3 z p q) (ix2 p q) (fun k => by
    match k with
    | ⟨0, _⟩ => rfl
    | ⟨1, _⟩ => rfl)

/-- The closing host operation: the result's buffer holds region 2's output array broadcast to a leading axis of extent one. -/
theorem W4_step (c : Dev nD) :
    W4 (F := Ideal) m ρ c (Proc.devRef .tc main_v3)
      = (broadcastInDim S1x2048x2048 ![1, 2] Facts₀.bcast_S2048x2048_S1x2048x2048_1_2 : (⟨S2048x2048, .f32⟩ : BufTy).Contents (Elt Ideal) → (⟨S1x2048x2048, .f32⟩ : BufTy).Contents (Elt Ideal))
          (W3 (F := Ideal) m ρ c (Proc.devRef .tc main_v2)) := by
  show StableHlo.after hostOps3 (W3 m ρ c) (Proc.devRef .tc main_v3) = _
  after_results

/-- Region 0's output array after region 1: untouched by region 1, it holds the product w3 w2 of the launch contents. -/
theorem V2_main_v0 (c : Dev nD) :
    V2 (F := Ideal) m ρ c main_v0
      = Cert.Spec.MM (m ((c : Thread nD τ).loc main_arg3)) (m ((c : Thread nD τ).loc main_arg2)) :=
  calc W2 (F := Ideal) m ρ c (Proc.devRef .tc main_v0)
    _ = W1 m ρ c (Proc.devRef .tc main_v0) := W2_of_ne m ρ c main_v0 (by decide)
    _ = (dat0 (V0 m ρ) c).arrAt 2 cfg0.N := W1_arr m ρ c 2
    _ = Cert.Spec.MM (V0 m ρ c main_arg3) (V0 m ρ c main_arg2) := arr0 (V0 m ρ) c
    _ = _ := rfl

/-- An argument that region 0 does not have among its arrays is, after region 0, as launched. -/
theorem V1_main_arg1 (c : Dev nD) : V1 (F := Ideal) m ρ c main_arg1 = m ((c : Thread nD τ).loc main_arg1) :=
  (W1_of_ne m ρ c main_arg1 (by decide)).trans rfl
theorem V1_main_arg0 (c : Dev nD) : V1 (F := Ideal) m ρ c main_arg0 = m ((c : Thread nD τ).loc main_arg0) :=
  (W1_of_ne m ρ c main_arg0 (by decide)).trans rfl

/-- Region 1's output array holds the product w1 w0 of the launch contents. -/
theorem V2_main_v1 (c : Dev nD) :
    V2 (F := Ideal) m ρ c main_v1
      = Cert.Spec.MM (m ((c : Thread nD τ).loc main_arg1)) (m ((c : Thread nD τ).loc main_arg0)) :=
  calc W2 (F := Ideal) m ρ c (Proc.devRef .tc main_v1)
    _ = (dat1 (V1 m ρ) c).arrAt 2 cfg1.N := W2_arr m ρ c 2
    _ = Cert.Spec.MM (V1 m ρ c main_arg1) (V1 m ρ c main_arg0) := arr1 (V1 m ρ) c
    _ = _ := by rw [V1_main_arg1, V1_main_arg0]

/-- Region 2's output array holds the product of the two earlier outputs. -/
theorem W3_main_v2 (c : Dev nD) :
    W3 (F := Ideal) m ρ c (Proc.devRef .tc main_v2)
      = Cert.Spec.MM
          (Cert.Spec.MM (m ((c : Thread nD τ).loc main_arg3)) (m ((c : Thread nD τ).loc main_arg2)))
          (Cert.Spec.MM (m ((c : Thread nD τ).loc main_arg1)) (m ((c : Thread nD τ).loc main_arg0))) :=
  calc W3 (F := Ideal) m ρ c (Proc.devRef .tc main_v2)
    _ = (dat2 (V2 m ρ) c).arrAt 2 cfg2.N := W3_arr m ρ c 2
    _ = Cert.Spec.MM (V2 m ρ c main_v0) (V2 m ρ c main_v1) := arr2 (V2 m ρ) c
    _ = _ := by rw [V2_main_v0, V2_main_v1]

/-- The result's buffer at the last boundary: the leading axis in front of the balanced tree of products. -/
theorem W4_main_v3 (c : Dev nD) :
    W4 (F := Ideal) m ρ c (Proc.devRef .tc main_v3)
      = Cert.Spec.lift1 (Cert.Spec.MM
          (Cert.Spec.MM (m ((c : Thread nD τ).loc main_arg3)) (m ((c : Thread nD τ).loc main_arg2)))
          (Cert.Spec.MM (m ((c : Thread nD τ).loc main_arg1)) (m ((c : Thread nD τ).loc main_arg0)))) := by
  rw [W4_step, W3_main_v2]
  exact bcast_lift1 _

/-- THE KERNEL'S VALUE RUN: every weakly fair execution ends with the result at lift1 ((w3 w2)(w1 w0)) of the launch
    contents of the arguments, and the arguments as launched. -/
theorem run_value : θ_run (defs (F := Ideal)) (onTc (τ := τ) (main (F := Ideal))) ⟨m, fun _ => 0, ρ⟩ (fun r => ∀ c : Dev nD,
      r.2.mem ((c.tc : Thread nD τ).loc main_v3)
        = Cert.Spec.lift1 (Cert.Spec.MM
          (Cert.Spec.MM (m ((c.tc : Thread nD τ).loc main_arg3)) (m ((c.tc : Thread nD τ).loc main_arg2)))
          (Cert.Spec.MM (m ((c.tc : Thread nD τ).loc main_arg1)) (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W4_main_v3 m ρ c), (h c).2⟩) (run_named (F := Ideal) m ρ)

end Cert.KernelIdeal.Hand

end
-- ==== Proof.RDat0.lean ====
/-
  Region 0 of the reference: one tiled matrix product, its contraction cut into four steps along the grid's last axis.
  At a point (i, j, k) the body adds to a running sum, kept in a scratch buffer between points, the product of the
  256 x 512 block (i, k) of the left array and the 512 x 512 block (k, j) of the right array, after setting the running
  sum to zero when k = 0, and copies the running sum into the output block (i, j). Here: what a point leaves in the
  running sum as a recursion over the points (`acc0`), the region's invariant that carries the scratch at that value
  from one point to the next (`PhiS0`), the proof data (`dat0`) and the body's obligation at every point. Stated at any
  float instance and at any contents `V` of the buffers when the region is entered.
-/
import proofs.«155047_g2000509712423811_pallasbulk_371_2_alg».proof.Proof.Gen.ReferenceIdeal.Launch
import proofs.«155047_g2000509712423811_pallasbulk_371_2_alg».proof.Proof.Gen.ReferenceIdeal.Skeleton
import proofs.«155047_g2000509712423811_pallasbulk_371_2_alg».proof.Proof.Gen.ReferenceIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one condition: is this the first step of the contraction? -/

/-- The condition of the body's `if`: the grid's last coordinate is zero. -/
abbrev cond0 (i : grid0.Coords) : Prop :=
  (Scalar.cmpi .ne (Scalar.extui (Scalar.cmpi .eq (BitVec.ofNat 32 (i 2).val) 0#32)) 0#32) = 1#1
/-- It holds at the points that are multiples of four (the last axis has extent four and varies fastest). -/
theorem hcond0 : ∀ t : Fin cfg0.N, cond0 (grid0.coords t) ↔ t.val % 4 = 0 :=
  (by decide +kernel : ∀ t : Fin grid0.N, cond0 (grid0.coords t) ↔ t.val % 4 = 0)

/-- No window is idle at any point (the body stores its output block at every point). -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The body's two runs -/

/-- The scratch buffer the running sum lives in, whole. -/
abbrev scM0 : Memref sig .tc .vmem S256x512 .f32 := Memref.whole cc0_scratch0

/-- The running sum after a step: the sum before it plus the product of the two blocks. -/
abbrev step0 (s : Vec F S256x512 .f32) (x0 : Vec F S256x512 .f32) (x1 : Vec F S512x512 .f32) : Vec F S256x512 .f32 :=
  k0_pay2 s x0 x1
/-- The running sum a first step starts from: zero everywhere. -/
abbrev zero0 : Vec F S256x512 .f32 := k0_pay1 (F := F)

/-- The offset of every access of the body: zero on both axes. -/
private theorem hz0 : (![0, 0] : Fin 2 → Nat) = fun _ => 0 := funext fun a => by fin_cases a <;> rfl
/-- Pieces whose first is stored through the whole-shape rectangle at zero offsets cover every index. -/
private theorem coverHead0 {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ (⟨Rect.unit off S.size inb, w⟩ : View.Piece Val S e) :: L, y ∈ p.1.set :=
  ⟨_, List.mem_cons_self, View.mem_set_unit_zero h inb y⟩

set_option maxHeartbeats 1000000 in
/-- THE FIRST STEP of a contraction (the last grid coordinate is zero): whatever the scratch and the output buffer held, both
    end holding the product of the two blocks added to zero; the input buffers are read and left as they were. -/
theorem body0_first (c : Dev nD) (E : Set ℕ) (i : grid0.Coords) (hc : cond0 i)
    (arg3 : Memref sig .tc .vmem S256x512 .f32) (harg3 : arg3.IsWhole) (arg4 : Memref sig .tc .vmem S512x512 .f32) (harg4 : arg4.IsWhole)
    (arg5 : Memref sig .tc .vmem S256x512 .f32) (harg5 : arg5.IsWhole) (arg6 : Memref sig .tc .vmem S256x512 .f32) (harg6 : arg6.IsWhole)
    (x0 : Vec F S256x512 .f32) (x1 : Vec F S512x512 .f32) (K : PUnit → sProp 𝕄) :
    iprop(owns (c : Thread nD τ) arg3 fullShare x0 ∗ owns (c : Thread nD τ) arg4 fullShare x1
        ∗ (∃ d, owns (c : Thread nD τ) arg5 fullShare d) ∗ (∃ s, owns (c : Thread nD τ) arg6 fullShare s)
        ∗ (iprop(owns (c : Thread nD τ) arg3 fullShare x0 ∗ owns (c : Thread nD τ) arg4 fullShare x1
            ∗ owns (c : Thread nD τ) arg5 fullShare (step0 (zero0 (F := F)) x0 x1)
            ∗ owns (c : Thread nD τ) arg6 fullShare (step0 (zero0 (F := F)) x0 x1)) -∗ K ⟨⟩))
      ⊢ wp frame (wpE (defs₀ (F := F)) Variants.none c none) E (cc0__tiled_matmul_kernel i arg3 harg3 arg4 harg4 arg5 harg5 arg6 harg6) K := by
  simp only [cc0__tiled_matmul_kernel_eq_skeleton]; unfold cc0__tiled_matmul_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (coverHead0 (S := S256x512) hz0 _ _ _), View.canon_unit_zero (S := S256x512) hz0,
      View.readCov_unit_zero (S := S256x512) _ hz0,
      View.readCov_eq_canon_ld _ _ _ (coverHead0 (S := S256x512) hz0 _ _ _), View.canon_cons_unit_zero (S := S256x512) hz0,
      View.ld_unit_zero (S := S256x512) hz0]
    simp only [View.readAt_eq_ld, View.ld_unit_zero (S := S256x512) hz0, View.ld_unit_zero (S := S512x512) hz0]
  iexists _; isplitr
  swap; · iexact H3
  ipureintro
  sl_unfold_words
  rw [View.read_writes_eq_canon _ _ _ (coverHead0 (S := S256x512) hz0 _ _ _), View.canon_cons_unit_zero (S := S256x512) hz0,
    View.readCov_unit_zero (S := S256x512) _ hz0]
  simp only [View.readAt_eq_ld, View.ld_unit_zero (S := S256x512) hz0, View.ld_unit_zero (S := S512x512) hz0]

set_option maxHeartbeats 1000000 in
/-- A LATER STEP (the last grid coordinate is not zero): the scratch holds the running sum `s`; it and the output buffer end
    holding `s` plus the product of the two blocks. -/
theorem body0_later (c : Dev nD) (E : Set ℕ) (i : grid0.Coords) (hc : ¬cond0 i)
    (arg3 : Memref sig .tc .vmem S256x512 .f32) (harg3 : arg3.IsWhole) (arg4 : Memref sig .tc .vmem S512x512 .f32) (harg4 : arg4.IsWhole)
    (arg5 : Memref sig .tc .vmem S256x512 .f32) (harg5 : arg5.IsWhole) (arg6 : Memref sig .tc .vmem S256x512 .f32) (harg6 : arg6.IsWhole)
    (x0 : Vec F S256x512 .f32) (x1 : Vec F S512x512 .f32) (s : Vec F S256x512 .f32) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare s
        ∗ (iprop(owns (c : Thread nD τ) arg3 fullShare x0 ∗ owns (c : Thread nD τ) arg4 fullShare x1
            ∗ owns (c : Thread nD τ) arg5 fullShare (step0 s x0 x1)
            ∗ owns (c : Thread nD τ) arg6 fullShare (step0 s x0 x1)) -∗ K ⟨⟩))
      ⊢ wp frame (wpE (defs₀ (F := F)) Variants.none c none) E (cc0__tiled_matmul_kernel i arg3 harg3 arg4 harg4 arg5 harg5 arg6 harg6) K := by
  simp only [cc0__tiled_matmul_kernel_eq_skeleton]; unfold cc0__tiled_matmul_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (coverHead0 (S := S256x512) hz0 _ _ _), View.canon_unit_zero (S := S256x512) hz0,
      View.readCov_unit_zero (S := S256x512) _ hz0]
    simp only [View.readAt_eq_ld, View.ld_unit_zero (S := S256x512) hz0, View.ld_unit_zero (S := S512x512) hz0]
  iexists _; isplitr
  swap; · iexact H3
  ipureintro
  sl_unfold_words
  rw [View.read_writes_eq_canon _ _ _ (coverHead0 (S := S256x512) hz0 _ _ _), View.canon_unit_zero (S := S256x512) hz0]
  simp only [View.readAt_eq_ld, View.ld_unit_zero (S := S256x512) hz0, View.ld_unit_zero (S := S512x512) hz0]

/-! ## The running sum, point by point -/

/-- What the scratch (and the output's staging buffer) holds after the body at position `n`: at a multiple of four the
    first step's value, elsewhere the step over what the point before left. -/
def acc0 (c : Dev nD) : (n : ℕ) → n < cfg0.N → Vec F S256x512 .f32
  | 0, hn => step0 (zero0 (F := F)) (iblk0 V c 0 ⟨0, hn⟩) (iblk0 V c 1 ⟨0, hn⟩)
  | n + 1, hn =>
    if (n + 1) % 4 = 0 then step0 (zero0 (F := F)) (iblk0 V c 0 ⟨n + 1, hn⟩) (iblk0 V c 1 ⟨n + 1, hn⟩)
    else step0 (acc0 c n (Nat.lt_of_succ_lt hn)) (iblk0 V c 0 ⟨n + 1, hn⟩) (iblk0 V c 1 ⟨n + 1, hn⟩)

/-- At a first step. -/
theorem acc0_first (c : Dev nD) (t : Fin cfg0.N) (h : t.val % 4 = 0) :
    acc0 V c t.val t.isLt = step0 (zero0 (F := F)) (iblk0 V c 0 t) (iblk0 V c 1 t) := by
  obtain ⟨n, hn⟩ := t
  cases n with
  | zero => rfl
  | succ n => exact if_pos h

/-- At a later step: over what the point before left. -/
theorem acc0_later (c : Dev nD) (t : Fin cfg0.N) (h : ¬t.val % 4 = 0) :
    acc0 V c t.val t.isLt
      = step0 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact if_neg h

/-! ## The region's invariant -/

/-- The core's scoped buffers other than this region's scratch and staging buffers (the other regions' own), each whole at
    some contents: the region never touches them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f))

/-- The class invariant (every scoped buffer that is no staging buffer of this region at some contents, and the generator
    register at some state) with this region's scratch split out: one way, -/
theorem PhiA0_split (c : Dev nD) :
    (Pipeline.ΦA spec0 c : sProp 𝕄) ⊢ iprop((∃ d, owns (c : Thread nD τ) scM0 fullShare d) ∗ rest0 (F := F) c ∗ (∃ r, prngReg c r)) := by
  unfold Pipeline.ΦA; rw [scopedRest0_eq]; unfold rest0
  simp only [scM0, owns_whole]
  iintro ⟨⟨H0, H1, H2, H3, H4, H5, H6, H7, H8, H9, H10, H11, H12, H13, H14⟩, Hg⟩
  iframe
/-- and back. -/
theorem PhiA0_join (c : Dev nD) :
    (iprop((∃ d, owns (c : Thread nD τ) scM0 fullShare d) ∗ rest0 (F := F) c ∗ (∃ r, prngReg c r)) : sProp 𝕄) ⊢ Pipeline.ΦA spec0 c := by
  unfold Pipeline.ΦA; rw [scopedRest0_eq]; unfold rest0
  simp only [scM0, owns_whole]
  iintro ⟨Hs, ⟨H1, H2, H3, H4, H5, H6, H7, H8, H9, H10, H11, H12, H13, H14⟩, Hg⟩
  iframe

/-- The invariant before position `n`: before the first point the class's; afterwards the scratch at what the point before
    left in it, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl
theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

/-! ## The proof data -/

/-- The proof data of this region on core `c`: the arrays as the region finds them; after the body at point `t` each input's
    buffer at its block and the output's at the running sum; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`: the invariant, what the core owes, and each window's current staging buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the invariant at the next point, what the core then owes, and each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point. The input buffers hold their blocks. At a multiple of four the first step runs, the scratch handed
    over at anything (out of the class invariant at the first point, the named running sum forgotten afterwards); elsewhere the
    later step runs over the running sum the point before left. Either way the scratch and the output buffer end at this point's
    running sum, and the rest of the invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = PhiS0 V c (t.val + 1) t.isLt from rfl, PhiS0_succ,
    after0_0, after0_1, after0_2, PhiS0_castSucc V c t]
  by_cases h0 : t.val % 4 = 0
  · rw [acc0_first V c t h0]
    by_cases hz : t.val = 0
    · rw [PhiS0_zero V c _ _ hz]
      iintro ⟨HΦ, Ho, ⟨%d0, H0⟩, ⟨%d1, H1⟩, ⟨%d2, H2⟩⟩
      ihave HΦ' := (PhiA0_split (F := F) c) $$ HΦ
      icases HΦ' with ⟨HS, Hr, Hg⟩
      iapply (body0_first c Set.univ (grid0.coords t) ((hcond0 t).mpr h0) _ _ _ _ _ _ _ _ (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · rw [PhiS0_pos V c _ _ hz]
      iintro ⟨⟨HS, Hr, Hg⟩, Ho, ⟨%d0, H0⟩, ⟨%d1, H1⟩, ⟨%d2, H2⟩⟩
      iapply (body0_first c Set.univ (grid0.coords t) ((hcond0 t).mpr h0) _ _ _ _ _ _ _ _ (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
  · have hz : t.val ≠ 0 := fun h => h0 (by rw [h])
    rw [acc0_later V c t h0, PhiS0_pos V c _ _ hz]
    iintro ⟨⟨HS, Hr, Hg⟩, Ho, ⟨%d0, H0⟩, ⟨%d1, H1⟩, ⟨%d2, H2⟩⟩
    iapply (body0_later c Set.univ (grid0.coords t) (fun h => h0 ((hcond0 t).mp h)) _ _ _ _ _ _ _ _ (iblk0 V c 0 t) (iblk0 V c 1 t)
      (acc0 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2

/-- The body at every point meets the proof data: at a multiple of four the first step's run, elsewhere the later step's over
    what the invariant hands it. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  exact (show _ ⊢ iprop((∃ d, owns (c : Thread nD τ) scM0 fullShare d) ∗ rest0 (F := F) c ∗ (∃ r, prngReg c r)) from by
    iintro ⟨Hs, Hr, Hg⟩
    isplitl [Hs]; · iexists _; iexact Hs
    isplitl [Hr]; · iexact Hr
    iexact Hg).trans (PhiA0_join c)

end Cert.ReferenceIdeal.Hand

end
-- ==== Proof.RRun.lean ====
/-
  The reference's run from the launch to the return: the host operations that pad each weight by nothing, the three
  regions, the host operation that puts a leading axis in front. Between two items each core holds every unscoped buffer at
  contents named here (`W0` at launch … `W5` at the return): a host stretch applies its operations; a region leaves its
  arrays at what its write-backs fold to and every other buffer as it found it. The run ends with every unscoped buffer at
  `W5`; the result's buffer and the four arguments are read off it.
-/
import proofs.«155047_g2000509712423811_pallasbulk_371_2_alg».proof.Proof.RDat0
import proofs.«155047_g2000509712423811_pallasbulk_371_2_alg».proof.Proof.RDat1
import proofs.«155047_g2000509712423811_pallasbulk_371_2_alg».proof.Proof.RDat2

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last host stretch. -/
abbrev W5 : Dev nD → Valuation τ sig (Elt F) := fun c => StableHlo.after hostOps3 (W4 m ρ c)

/-! ### The arguments end as launched: no host operation writes one and no region has one among its arrays -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- No region has a prefetched table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as an item: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- REGION 0 over the thread state: entered from every unscoped buffer at `W1`, left at `W2`. Its arrays are split out of
    the unscoped buffers and put back at the exit contents; the generator register and the scoped rest go into the region's
    invariant before the first point and come back out of it after the last; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are split out of
    the unscoped buffers and put back at the exit contents; the generator register and the scoped rest go into the region's
    invariant before the first point and come back out of it after the last; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W3`, left at `W4`. Its arrays are split out of
    the unscoped buffers and put back at the exit contents; the generator register and the scoped rest go into the region's
    invariant before the first point and come back out of it after the last; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main is the run of the items. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state holds the result's buffer at the last boundary's contents and the four arguments as launched. -/
theorem run_named : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.ReferenceIdeal.Hand

end
-- ==== Proof.RPay0.lean ====
/-
  Region 0's two payloads read at an index, at the ideal instance: the zero splat is zero everywhere, and a step adds to the
  running sum, at (r, q), the sum over the 512 indices kk of the slice of left-block(r, kk) * right-block(kk, q).
-/
import proofs.«155047_g2000509712423811_pallasbulk_371_2_alg».proof.Proof.Gen.ReferenceIdeal.Skeleton
import Idealize.ShloMosaic.Lib.ValueIdx
import Idealize.ShloMosaic.Lib.Pipeline.Value
import Idealize.ShloMosaic.PureOps.Ideal.Laws

noncomputable section

open scoped BigOperators

namespace Cert.ReferenceIdeal.Hand

open Idealize.ShloMosaic Idealize.ShloMosaic.TcCoe Idealize.ShloMosaic.ValueIdx
open Cert.ReferenceIdeal Cert.ReferenceIdeal.Gen

/-- The zero splat at an index. -/
theorem zero0_apply (j : S256x512.Idx) : (k0_pay1 (F := Ideal)) j = 0 := by
  unfold k0_pay1
  rw [shapeCast_self, broadcast_apply]
  exact Ideal.ofBits_zero_f32

/-- On the left operand's row axis the product reads the result's row. -/
theorem lhs_dot0_0 (j : S256x512.Idx) (k : dot_S256x512_S512x512_S256x512_1_0_0_1_n_n.contr.Idx) :
    (dot_S256x512_S512x512_S256x512_1_0_0_1_n_n.lhsIdx j k (0 : Fin S256x512.rank)).val = (j (0 : Fin S256x512.rank)).val := by
  unfold DotDims.lhsIdx
  rw [dif_neg (show ¬(0 : Fin S256x512.rank) ∈ dot_S256x512_S512x512_S256x512_1_0_0_1_n_n.lhsBatch by decide),
    dif_pos (show (0 : Fin S256x512.rank) ∈ dot_S256x512_S512x512_S256x512_1_0_0_1_n_n.lhsNonContracting by decide)]
  rfl

/-- On the left operand's column axis it reads the contraction index. -/
theorem lhs_dot0_1 (j : S256x512.Idx) (k : dot_S256x512_S512x512_S256x512_1_0_0_1_n_n.contr.Idx) :
    (dot_S256x512_S512x512_S256x512_1_0_0_1_n_n.lhsIdx j k (1 : Fin S256x512.rank)).val = (k ⟨0, Nat.one_pos⟩).val :=
  dot_S256x512_S512x512_S256x512_1_0_0_1_n_n.lhsIdx_val_of_single (cl := (1 : Fin S256x512.rank)) rfl j k

/-- On the right operand's row axis it reads the contraction index. -/
theorem rhs_dot0_0 (j : S256x512.Idx) (k : dot_S256x512_S512x512_S256x512_1_0_0_1_n_n.contr.Idx) :
    (dot_S256x512_S512x512_S256x512_1_0_0_1_n_n.rhsIdx j k (0 : Fin S512x512.rank)).val = (k ⟨0, Nat.one_pos⟩).val :=
  dot_S256x512_S512x512_S256x512_1_0_0_1_n_n.rhsIdx_val_of_single (cr := (0 : Fin S512x512.rank)) rfl j k

/-- On the right operand's column axis it reads the result's column. -/
theorem rhs_dot0_1 (j : S256x512.Idx) (k : dot_S256x512_S512x512_S256x512_1_0_0_1_n_n.contr.Idx) :
    (dot_S256x512_S512x512_S256x512_1_0_0_1_n_n.rhsIdx j k (1 : Fin S512x512.rank)).val = (j (1 : Fin S256x512.rank)).val := by
  unfold DotDims.rhsIdx
  rw [dif_neg (show ¬(1 : Fin S512x512.rank) ∈ dot_S256x512_S512x512_S256x512_1_0_0_1_n_n.rhsBatch by decide),
    dif_pos (show (1 : Fin S512x512.rank) ∈ dot_S256x512_S512x512_S256x512_1_0_0_1_n_n.rhsNonContracting by decide)]
  rfl

/-- A step at an index: the running sum plus the slice's sum of products. -/
theorem step0_apply (s x0 : Vec Ideal S256x512 .f32) (x1 : Vec Ideal S512x512 .f32) (r : Fin 256) (q : Fin 512) :
    k0_pay2 (F := Ideal) s x0 x1 (ix2 r q) = s (ix2 r q) + ∑ kk : Fin 512, x0 (ix2 r kk) * x1 (ix2 kk q) := by
  unfold k0_pay2
  rw [shapeCast_self, shapeCast_self, shapeCast_self, addf_apply]
  refine congrArg (s (ix2 r q) + ·) ?_
  refine (Ideal.matmul_constant_zero_apply dot_S256x512_S512x512_S256x512_1_0_0_1_n_n none _ _ (ix2 r q)).trans ?_
  rw [← Equiv.sum_comp (contrEquiv1 dot_S256x512_S512x512_S256x512_1_0_0_1_n_n 512 rfl rfl).symm]
  refine Finset.sum_congr rfl fun kk _ => ?_
  have hk := contrEquiv1_symm_val dot_S256x512_S512x512_S256x512_1_0_0_1_n_n 512 rfl rfl kk
  have el : dot_S256x512_S512x512_S256x512_1_0_0_1_n_n.lhsIdx (ix2 r q)
      ((contrEquiv1 dot_S256x512_S512x512_S256x512_1_0_0_1_n_n 512 rfl rfl).symm kk) = ix2 r kk :=
    funext fun a => Fin.ext (by
      match a with
      | ⟨0, _⟩ => exact lhs_dot0_0 _ _
      | ⟨1, _⟩ => exact (lhs_dot0_1 _ _).trans hk)
  have er : dot_S256x512_S512x512_S256x512_1_0_0_1_n_n.rhsIdx (ix2 r q)
      ((contrEquiv1 dot_S256x512_S512x512_S256x512_1_0_0_1_n_n 512 rfl rfl).symm kk) = ix2 kk q :=
    funext fun a => Fin.ext (by
      match a with
      | ⟨0, _⟩ => exact (rhs_dot0_0 _ _).trans hk
      | ⟨1, _⟩ => exact rhs_dot0_1 _ _)
  rw [el, er]

end Cert.ReferenceIdeal.Hand

end
-- ==== Proof.Slices.lean ====
/-
  A sum over 2048 indices taken in four slices of 512, the way a running sum that starts from zero meets them: zero plus the
  first slice's sum, plus the second's, the third's and the fourth's is the sum over all 2048 indices. Only associativity
  and commutativity of addition and zero being neutral are used, so it holds on the extended reals as it stands.
-/
import Mathlib.Algebra.BigOperators.Fin
import Mathlib.Data.EReal.Basic

noncomputable section

open scoped BigOperators

namespace Cert.Slices

/-- The index 512 s + kk of slice `s`. -/
def at4 (s : Fin 4) (kk : Fin 512) : Fin 2048 := ⟨512 * s.val + kk.val, by omega⟩

/-- An index below 2048 is a slice together with an index inside the slice: the quotient and the remainder by 512. -/
def slice4 : Fin 4 × Fin 512 ≃ Fin 2048 where
  toFun x := at4 x.1 x.2
  invFun k := (⟨k.val / 512, by omega⟩, ⟨k.val % 512, by omega⟩)
  left_inv x := by
    obtain ⟨s, kk⟩ := x
    refine Prod.ext (Fin.ext ?_) (Fin.ext ?_)
    · show (512 * s.val + kk.val) / 512 = s.val
      omega
    · show (512 * s.val + kk.val) % 512 = kk.val
      omega
  right_inv k := Fin.ext (by
    show 512 * (k.val / 512) + k.val % 512 = k.val
    omega)

/-- The sum over all indices is the sum over the four slices. -/
theorem sum_slices (f : Fin 2048 → EReal) :
    ∑ k : Fin 2048, f k = ∑ s : Fin 4, ∑ kk : Fin 512, f (at4 s kk) := by
  refine (Equiv.sum_comp slice4 f).symm.trans ?_
  rw [Fintype.sum_prod_type]
  rfl

/-- The running sum after the four slices, as it is accumulated from zero, is the whole sum. -/
theorem acc_slices (f : Fin 2048 → EReal) :
    (((0 + ∑ kk : Fin 512, f (at4 0 kk)) + ∑ kk : Fin 512, f (at4 1 kk)) + ∑ kk : Fin 512, f (at4 2 kk))
        + ∑ kk : Fin 512, f (at4 3 kk) = ∑ k : Fin 2048, f k := by
  rw [zero_add, sum_slices, Fin.sum_univ_four]

end Cert.Slices

end
-- ==== Proof.RValue0.lean ====
/-
  What region 0 of the reference leaves in its output array, at the ideal instance: the matrix product of its two operand
  arrays. At the point (i, j, k) the running sum holds, at (r, q), the sum over the first k + 1 slices of the contraction
  axis (512 indices each) of left(256 i + r, ·) * right(·, 512 j + q), added to zero; after the fourth slice that is the sum
  over all 2048 indices. The output block (i, j) is written back after the fourth slice, and the 8 x 4 blocks tile the array.
-/
import proofs.«155047_g2000509712423811_pallasbulk_371_2_alg».proof.Proof.RDat0
import proofs.«155047_g2000509712423811_pallasbulk_371_2_alg».proof.Proof.RPay0
import proofs.«155047_g2000509712423811_pallasbulk_371_2_alg».proof.Proof.Slices
import proofs.«155047_g2000509712423811_pallasbulk_371_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-! ## The arrays and the blocks, named at their shapes -/

/-- The left operand array as the region finds it: 2048 x 2048. -/
abbrev arrL0 (c : Dev nD) : Vec Ideal S2048x2048 .f32 := V c main_call0_v1
/-- The right operand array as the region finds it: 2048 x 2048. -/
abbrev arrR0 (c : Dev nD) : Vec Ideal S2048x2048 .f32 := V c main_call0_v0

/-- The left window's block at position `n` of the grid: 256 x 512. -/
abbrev blkL0 (c : Dev nD) (n : ℕ) (hn : n < cfg0.N) : Vec Ideal S256x512 .f32 := iblk0 V c 0 ⟨n, hn⟩
/-- The right window's block at position `n` of the grid: 512 x 512. -/
abbrev blkR0 (c : Dev nD) (n : ℕ) (hn : n < cfg0.N) : Vec Ideal S512x512 .f32 := iblk0 V c 1 ⟨n, hn⟩

/-! ## The blocks read at an index -/

/-- The three windows' block indices at the point t = (i * 4 + j) * 4 + k: the left window is at (i, k), the right one at
    (k, j), the output at (i, j), with i = t / 16, j = t / 4 % 4, k = t % 4. -/
theorem idx0_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4)

/-- The left block at position `n`, read at `x`, is the left array at row 256 (n / 16) + x₀ and column 512 (n % 4) + x₁:
    a block's coordinate is its block index times the block's extent plus the coordinate inside the block. -/
theorem blkL0_apply (c : Dev nD) (n : ℕ) (hn : n < cfg0.N) (x : S256x512.Idx) (y : S2048x2048.Idx)
    (h0 : (y 0).val = 256 * (n / 16) + (x 0).val) (h1 : (y 1).val = 512 * (n % 4) + (x 1).val) :
    blkL0 V c n hn x = arrL0 V c y := by
  have e0 : win0_0.index ⟨n, hn⟩ (0 : Fin 2) = n / 16 := (idx0_facts ⟨n, hn⟩).1
  have e1 : win0_0.index ⟨n, hn⟩ (1 : Fin 2) = n % 4 := (idx0_facts ⟨n, hn⟩).2.1
  unfold blkL0 iblk0
  rw [View.read_apply]
  show arrL0 V c _ = arrL0 V c _
  congr 1
  funext a
  apply Fin.ext
  match a with
  | ⟨0, _⟩ => show win0_0.index ⟨n, hn⟩ (0 : Fin 2) * 256 + 1 * (x 0).val = (y 0).val; rw [e0, h0]; omega
  | ⟨1, _⟩ => show win0_0.index ⟨n, hn⟩ (1 : Fin 2) * 512 + 1 * (x 1).val = (y 1).val; rw [e1, h1]; omega

/-- The right block at position `n`, read at `x`, is the right array at row 512 (n % 4) + x₀ and column
    512 (n / 4 % 4) + x₁. -/
theorem blkR0_apply (c : Dev nD) (n : ℕ) (hn : n < cfg0.N) (x : S512x512.Idx) (y : S2048x2048.Idx)
    (h0 : (y 0).val = 512 * (n % 4) + (x 0).val) (h1 : (y 1).val = 512 * (n / 4 % 4) + (x 1).val) :
    blkR0 V c n hn x = arrR0 V c y := by
  have e0 : win0_1.index ⟨n, hn⟩ (0 : Fin 2) = n % 4 := (idx0_facts ⟨n, hn⟩).2.2.1
  have e1 : win0_1.index ⟨n, hn⟩ (1 : Fin 2) = n / 4 % 4 := (idx0_facts ⟨n, hn⟩).2.2.2.1
  unfold blkR0 iblk0
  rw [View.read_apply]
  show arrR0 V c _ = arrR0 V c _
  congr 1
  funext a
  apply Fin.ext
  match a with
  | ⟨0, _⟩ => show win0_1.index ⟨n, hn⟩ (0 : Fin 2) * 512 + 1 * (x 0).val = (y 0).val; rw [e0, h0]; omega
  | ⟨1, _⟩ => show win0_1.index ⟨n, hn⟩ (1 : Fin 2) * 512 + 1 * (x 1).val = (y 1).val; rw [e1, h1]; omega

/-! ## The four steps of one contraction -/

/-- Four steps from zero over any four pairs of blocks, read at (r, q): zero plus the four pairs' sums over the 512 inner
    indices of left(r, ·) * right(·, q), added in the steps' order. -/
theorem four0_apply (x0 x1 x2 x3 : Vec Ideal S256x512 .f32) (y0 y1 y2 y3 : Vec Ideal S512x512 .f32) (r : Fin 256) (q : Fin 512) :
    step0 (step0 (step0 (step0 (zero0 (F := Ideal)) x0 y0) x1 y1) x2 y2) x3 y3 (ix2 r q)
      = (((0 + ∑ kk : Fin 512, x0 (ix2 r kk) * y0 (ix2 kk q)) + ∑ kk : Fin 512, x1 (ix2 r kk) * y1 (ix2 kk q))
          + ∑ kk : Fin 512, x2 (ix2 r kk) * y2 (ix2 kk q)) + ∑ kk : Fin 512, x3 (ix2 r kk) * y3 (ix2 kk q) := by
  refine (step0_apply _ x3 y3 r q).trans ?_
  refine congrArg (· + _) ?_
  refine (step0_apply _ x2 y2 r q).trans ?_
  refine congrArg (· + _) ?_
  refine (step0_apply _ x1 y1 r q).trans ?_
  refine congrArg (· + _) ?_
  refine (step0_apply _ x0 y0 r q).trans ?_
  exact congrArg (· + _) (zero0_apply (ix2 r q))

/-- The running sum after the fourth point n + 3 of a contraction that starts at the multiple of four `n`: four steps from
    zero over the blocks at the positions n, n + 1, n + 2, n + 3. -/
theorem acc0_four (c : Dev nD) (n : ℕ) (h4 : n % 4 = 0) (hn : n + 3 < cfg0.N) :
    acc0 V c (n + 3) hn
      = step0 (step0 (step0 (step0 (zero0 (F := Ideal))
          (blkL0 V c n (by omega)) (blkR0 V c n (by omega)))
          (blkL0 V c (n + 1) (by omega)) (blkR0 V c (n + 1) (by omega)))
          (blkL0 V c (n + 2) (by omega)) (blkR0 V c (n + 2) (by omega)))
          (blkL0 V c (n + 3) hn) (blkR0 V c (n + 3) hn) := by
  have e3 := acc0_later V c ⟨n + 3, hn⟩ (by show ¬(n + 3) % 4 = 0; omega)
  have e2 := acc0_later V c ⟨n + 2, by omega⟩ (by show ¬(n + 2) % 4 = 0; omega)
  have e1 := acc0_later V c ⟨n + 1, by omega⟩ (by show ¬(n + 1) % 4 = 0; omega)
  have e0 := acc0_first V c ⟨n, by omega⟩ h4
  refine e3.trans ?_
  show step0 (acc0 V c (n + 2) _) _ _ = _
  rw [show acc0 V c (n + 2) _ = _ from e2]
  show step0 (step0 (acc0 V c (n + 1) _) _ _) _ _ = _
  rw [show acc0 V c (n + 1) _ = _ from e1]
  show step0 (step0 (step0 (acc0 V c n _) _ _) _ _) _ _ = _
  rw [show acc0 V c n _ = _ from e0]

/-- At the position m = n + s of a contraction that starts at `n`, the blocks' sum of products at (r, q) is slice `s` of the
    contraction's sum for the arrays' entry (p, p'), where p = 256 (n / 16) + r and p' = 512 (n / 4 % 4) + q. -/
theorem slice0_sum (c : Dev nD) (n : ℕ) (h4 : n % 4 = 0) (s : Fin 4) (m : ℕ) (hm : m < cfg0.N) (hms : m = n + s.val)
    (r : Fin 256) (q : Fin 512) (p p' : Fin 2048) (hp : p.val = 256 * (n / 16) + r.val) (hp' : p'.val = 512 * (n / 4 % 4) + q.val) :
    ∑ kk : Fin 512, blkL0 V c m hm (ix2 r kk) * blkR0 V c m hm (ix2 kk q)
      = ∑ kk : Fin 512, arrL0 V c (ix2 p (Cert.Slices.at4 s kk)) * arrR0 V c (ix2 (Cert.Slices.at4 s kk) p') := by
  have hs := s.isLt
  refine Finset.sum_congr rfl fun kk _ => ?_
  rw [blkL0_apply V c m hm (ix2 r kk) (ix2 p (Cert.Slices.at4 s kk))
      (by show p.val = 256 * (m / 16) + r.val; omega)
      (by show 512 * s.val + kk.val = 512 * (m % 4) + kk.val; omega),
    blkR0_apply V c m hm (ix2 kk q) (ix2 (Cert.Slices.at4 s kk) p')
      (by show 512 * s.val + kk.val = 512 * (m % 4) + kk.val; omega)
      (by show p'.val = 512 * (m / 4 % 4) + q.val; omega)]

/-- After the fourth point of a contraction the running sum holds, at (r, q), the product's entry (p, p'): zero plus the
    four slices' sums is the sum over all 2048 indices of the contraction axis. -/
theorem acc0_apply (c : Dev nD) (n : ℕ) (h4 : n % 4 = 0) (hn : n + 3 < cfg0.N) (r : Fin 256) (q : Fin 512)
    (p p' : Fin 2048) (hp : p.val = 256 * (n / 16) + r.val) (hp' : p'.val = 512 * (n / 4 % 4) + q.val) :
    acc0 V c (n + 3) hn (ix2 r q) = Cert.Spec.MM (arrL0 V c) (arrR0 V c) (ix2 p p') := by
  rw [acc0_four V c n h4 hn, Cert.Spec.MM_ix2]
  refine (four0_apply (blkL0 V c n (by omega)) (blkL0 V c (n + 1) (by omega)) (blkL0 V c (n + 2) (by omega)) (blkL0 V c (n + 3) hn)
    (blkR0 V c n (by omega)) (blkR0 V c (n + 1) (by omega)) (blkR0 V c (n + 2) (by omega)) (blkR0 V c (n + 3) hn) r q).trans ?_
  refine Eq.trans ?_ (Cert.Slices.acc_slices (fun k => arrL0 V c (ix2 p k) * arrR0 V c (ix2 k p')))
  exact congrArg₂ (· + ·) (congrArg₂ (· + ·) (congrArg₂ (· + ·)
    (congrArg (0 + ·) (slice0_sum V c n h4 0 n (by omega) rfl r q p p' hp hp'))
    (slice0_sum V c n h4 1 (n + 1) (by omega) rfl r q p p' hp hp'))
    (slice0_sum V c n h4 2 (n + 2) (by omega) rfl r q p p' hp hp'))
    (slice0_sum V c n h4 3 (n + 3) hn rfl r q p p' hp hp')

/-- What the fourth point of a contraction writes back is the output window's block there of the product. -/
theorem flushed0_at (c : Dev nD) (n : ℕ) (h4 : n % 4 = 0) (hn : n + 3 < cfg0.N) :
    (dat0 (F := Ideal) V c).flushed 2 ⟨n + 3, hn⟩
      = ((cfg0.win 2).blk ⟨n + 3, hn⟩).view.read (Elt Ideal) (Cert.Spec.MM (arrL0 V c) (arrR0 V c)) := by
  have hN : cfg0.N = 128 := N_0
  have e0 : win0_2.index ⟨n + 3, hn⟩ (0 : Fin 2) = (n + 3) / 16 := (idx0_facts ⟨n + 3, hn⟩).2.2.2.2.1
  have e1 : win0_2.index ⟨n + 3, hn⟩ (1 : Fin 2) = (n + 3) / 4 % 4 := (idx0_facts ⟨n + 3, hn⟩).2.2.2.2.2
  show (cfg0.win 2).cut (grid0.coords ⟨n + 3, hn⟩) ((dat0 (F := Ideal) V c).after 2 ⟨n + 3, hn⟩) = _
  rw [after0_2]
  funext j
  obtain ⟨r, q, rfl⟩ : ∃ (r : Fin 256) (q : Fin 512), j = ix2 r q := ⟨j 0, j 1, eq_ix2 j⟩
  have hr := r.isLt
  have hq := q.isLt
  rw [View.read_apply]
  show acc0 V c (n + 3) hn (ix2 r q) = Cert.Spec.MM (arrL0 V c) (arrR0 V c) (((cfg0.win 2).blk ⟨n + 3, hn⟩).view.emb (ix2 r q))
  have hemb : ((cfg0.win 2).blk ⟨n + 3, hn⟩).view.emb (ix2 r q)
      = ix2 (⟨256 * (n / 16) + r.val, by omega⟩ : Fin 2048) (⟨512 * (n / 4 % 4) + q.val, by omega⟩ : Fin 2048) := by
    funext a
    apply Fin.ext
    match a with
    | ⟨0, _⟩ => show win0_2.index ⟨n + 3, hn⟩ (0 : Fin 2) * 256 + 1 * r.val = 256 * (n / 16) + r.val; rw [e0]; omega
    | ⟨1, _⟩ => show win0_2.index ⟨n + 3, hn⟩ (1 : Fin 2) * 512 + 1 * q.val = 512 * (n / 4 % 4) + q.val; rw [e1]; omega
  rw [hemb]
  exact acc0_apply V c n h4 hn r q _ _ rfl rfl

/-- What every flushing point writes back is its block of the product. -/
theorem flushed0_eq (c : Dev nD) (t : Fin cfg0.N) (hf : (cfg0.win 2).flush t = true) :
    (dat0 (F := Ideal) V c).flushed 2 t
      = ((cfg0.win 2).blk t).view.read (Elt Ideal) (Cert.Spec.MM (arrL0 V c) (arrR0 V c)) := by
  have h3 : t.val % 4 = 3 := (flush0_2 t).mp hf
  obtain ⟨m, hm⟩ := t
  have h3' : m % 4 = 3 := h3
  have e : (⟨m, hm⟩ : Fin cfg0.N) = ⟨(m - 3) + 3, by omega⟩ := Fin.ext (by show m = m - 3 + 3; omega)
  rw [e]
  exact flushed0_at V c (m - 3) (by omega) (by omega)

/-! ## From the blocks to the array -/

/-- The written-back blocks tile the output array: the index (a, b) lies in the block of the point
    ((a / 256) * 4 + b / 512) * 4 + 3, the last point of the contraction of row block a / 256 and column block b / 512. -/
theorem cover0 (i : S2048x2048.Idx) :
    ∃ t : Fin cfg0.N, (cfg0.win 2).flush t = true ∧ i ∈ ((cfg0.win 2).blk t).view.set := by
  have hN : cfg0.N = 128 := N_0
  have h0 : (i 0).val < 2048 := idx2_lt0 i
  have h1 : (i 1).val < 2048 := idx2_lt1 i
  have ht : ((i 0).val / 256 * 4 + (i 1).val / 512) * 4 + 3 < cfg0.N := by omega
  have e0 : win0_2.index ⟨((i 0).val / 256 * 4 + (i 1).val / 512) * 4 + 3, ht⟩ (0 : Fin 2)
      = (((i 0).val / 256 * 4 + (i 1).val / 512) * 4 + 3) / 16 := (idx0_facts ⟨_, ht⟩).2.2.2.2.1
  have e1 : win0_2.index ⟨((i 0).val / 256 * 4 + (i 1).val / 512) * 4 + 3, ht⟩ (1 : Fin 2)
      = (((i 0).val / 256 * 4 + (i 1).val / 512) * 4 + 3) / 4 % 4 := (idx0_facts ⟨_, ht⟩).2.2.2.2.2
  refine ⟨⟨((i 0).val / 256 * 4 + (i 1).val / 512) * 4 + 3, ht⟩,
    (flush0_2 _).mpr (by show (((i 0).val / 256 * 4 + (i 1).val / 512) * 4 + 3) % 4 = 3; omega), ?_⟩
  rw [View.set_slice_whole, Rect.mem_set_unit]
  intro a
  match a with
  | ⟨0, _⟩ =>
    show win0_2.index ⟨((i 0).val / 256 * 4 + (i 1).val / 512) * 4 + 3, ht⟩ (0 : Fin 2) * 256 ≤ (i 0).val
      ∧ (i 0).val < win0_2.index ⟨((i 0).val / 256 * 4 + (i 1).val / 512) * 4 + 3, ht⟩ (0 : Fin 2) * 256 + 256
    rw [e0]; omega
  | ⟨1, _⟩ =>
    show win0_2.index ⟨((i 0).val / 256 * 4 + (i 1).val / 512) * 4 + 3, ht⟩ (1 : Fin 2) * 512 ≤ (i 1).val
      ∧ (i 1).val < win0_2.index ⟨((i 0).val / 256 * 4 + (i 1).val / 512) * 4 + 3, ht⟩ (1 : Fin 2) * 512 + 512
    rw [e1]; omega

/-- Region 0 leaves in its output array the product of its two operand arrays. -/
theorem rarr0 (c : Dev nD) :
    (dat0 (F := Ideal) V c).arrAt 2 cfg0.N = Cert.Spec.MM (V c main_call0_v1) (V c main_call0_v0) :=
  (dat0 (F := Ideal) V c).arrAt_eq_of_cover 2 (Cert.Spec.MM (arrL0 V c) (arrR0 V c)) (flushed0_eq V c) cover0

end Cert.ReferenceIdeal.Hand

end
-- ==== Proof.RComp.lean ====
/-
  The reference's result as one function of the four weights. The first host stretch pads each weight by nothing, so each
  padded array is the weight itself. Region 0 leaves w1 w0 in its output array, region 1 the product of w2 with that,
  region 2 the product of w3 with that; no region touches another's output. The closing host operation puts a leading axis of
  extent one in front. So the result is lift1 (w3 (w2 (w1 w0))).
-/
import proofs.«155047_g2000509712423811_pallasbulk_371_2_alg».proof.Proof.RRun
import proofs.«155047_g2000509712423811_pallasbulk_371_2_alg».proof.Proof.RValue0
import proofs.«155047_g2000509712423811_pallasbulk_371_2_alg».proof.Proof.RValue1
import proofs.«155047_g2000509712423811_pallasbulk_371_2_alg».proof.Proof.RValue2
import Idealize.ShloMosaic.Lib.StableHlo.Run
import Idealize.ShloMosaic.Lib.ValueLayout
import Idealize.ShloMosaic.Lib.KernelVsHost

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

/-! ## The two layout operations of the host stretches -/

/-- A pad by nothing on every side and between entries is the operand itself: every index of the result is inside the
    operand, at its own coordinates. -/
theorem pad_nothing {α : Type} (x : S2048x2048.Idx → α) {u : Shape} (v : u.Idx → α)
    (h : S2048x2048.Pads (![0, 0] : Fin 2 → Nat) ![0, 0] ![0, 0] S2048x2048) (hu : 0 < u.numel) :
    pad S2048x2048 ![0, 0] ![0, 0] ![0, 0] x v h hu = x := by
  funext j
  refine pad_apply_of_inside _ _ _ x v h hu j j fun a => ?_
  have h0 : ∀ a : Fin 2, (![0, 0] : Fin 2 → Nat) a = 0 := by decide
  show (j a).val = (![0, 0] : Fin 2 → Nat) a + (j a).val * ((![0, 0] : Fin 2 → Nat) a + 1)
  rw [h0 a]; omega

/-- The broadcast of a matrix along the two trailing axes of a shape with a leading axis of extent one reads the matrix
    at the two trailing coordinates: it is the leading axis put in front. -/
theorem bcast_lift1 (x : S2048x2048.Idx → EReal)
    (h : S2048x2048.BroadcastsInDim S1x2048x2048 (![1, 2] : Fin 2 → Fin S1x2048x2048.rank)) :
    broadcastInDim S1x2048x2048 ![1, 2] h x = Cert.Spec.lift1 x := by
  funext i
  refine broadcastInDim_apply ![1, 2] h x i
    (ix2 (⟨(i 1).val, (i 1).isLt⟩ : Fin 2048) (⟨(i 2).val, (i 2).isLt⟩ : Fin 2048)) fun a => ?_
  have hs : ∀ a : Fin 2, ¬ S2048x2048.size a = 1 := by decide
  rw [if_neg (hs a)]
  match a with
  | ⟨0, _⟩ => rfl
  | ⟨1, _⟩ => rfl

variable (m : (ℓ : Loc nD τ sig) → Buf (Elt Ideal) ℓ) (ρ : Dev nD → PrngReg)

/-! ## The first host stretch: each padded array is its weight -/

theorem W1_v0 (c : Dev nD) :
    W1 (F := Ideal) m ρ c (Proc.devRef .tc main_call0_v0) = m ((c : Thread nD τ).loc main_arg0) := by
  show StableHlo.after hostOps0 (W0 m ρ c) (Proc.devRef .tc main_call0_v0) = _
  after_results
  simp only [StableHlo.TRef.ofBuf, StableHlo.TRef.toBuf, cast_eq]
  exact pad_nothing _ _ _ _
theorem W1_v1 (c : Dev nD) :
    W1 (F := Ideal) m ρ c (Proc.devRef .tc main_call0_v1) = m ((c : Thread nD τ).loc main_arg1) := by
  show StableHlo.after hostOps0 (W0 m ρ c) (Proc.devRef .tc main_call0_v1) = _
  after_results
  simp only [StableHlo.TRef.ofBuf, StableHlo.TRef.toBuf, cast_eq]
  exact pad_nothing _ _ _ _
theorem W1_v2 (c : Dev nD) :
    W1 (F := Ideal) m ρ c (Proc.devRef .tc main_call0_v2) = m ((c : Thread nD τ).loc main_arg2) := by
  show StableHlo.after hostOps0 (W0 m ρ c) (Proc.devRef .tc main_call0_v2) = _
  after_results
  simp only [StableHlo.TRef.ofBuf, StableHlo.TRef.toBuf, cast_eq]
  exact pad_nothing _ _ _ _
theorem W1_v3 (c : Dev nD) :
    W1 (F := Ideal) m ρ c (Proc.devRef .tc main_call0_v3) = m ((c : Thread nD τ).loc main_arg3) := by
  show StableHlo.after hostOps0 (W0 m ρ c) (Proc.devRef .tc main_call0_v3) = _
  after_results
  simp only [StableHlo.TRef.ofBuf, StableHlo.TRef.toBuf, cast_eq]
  exact pad_nothing _ _ _ _

/-! ## Region 0: w1 w0 -/

/-- Region 0's output array at its exit: the product of the second weight with the first. -/
theorem W2_v4 (c : Dev nD) :
    W2 (F := Ideal) m ρ c (Proc.devRef .tc main_call0_v4)
      = Cert.Spec.MM (m ((c : Thread nD τ).loc main_arg1)) (m ((c : Thread nD τ).loc main_arg0)) := by
  refine (W2_arr m ρ c 2).trans ((rarr0 (V1 m ρ) c).trans ?_)
  rw [show V1 m ρ c main_call0_v1 = m ((c : Thread nD τ).loc main_arg1) from W1_v1 m ρ c,
    show V1 m ρ c main_call0_v0 = m ((c : Thread nD τ).loc main_arg0) from W1_v0 m ρ c]
/-- The third weight's padded array is no array of region 0. -/
theorem W2_v2 (c : Dev nD) :
    W2 (F := Ideal) m ρ c (Proc.devRef .tc main_call0_v2) = m ((c : Thread nD τ).loc main_arg2) :=
  (W2_of_ne m ρ c main_call0_v2 (by decide)).trans (W1_v2 m ρ c)
/-- The fourth weight's padded array is no array of region 0. -/
theorem W2_v3 (c : Dev nD) :
    W2 (F := Ideal) m ρ c (Proc.devRef .tc main_call0_v3) = m ((c : Thread nD τ).loc main_arg3) :=
  (W2_of_ne m ρ c main_call0_v3 (by decide)).trans (W1_v3 m ρ c)

/-! ## Region 1: w2 (w1 w0) -/

/-- Region 1's output array at its exit: the product of the third weight with region 0's output. -/
theorem W3_v5 (c : Dev nD) :
    W3 (F := Ideal) m ρ c (Proc.devRef .tc main_call0_v5)
      = Cert.Spec.MM (m ((c : Thread nD τ).loc main_arg2))
          (Cert.Spec.MM (m ((c : Thread nD τ).loc main_arg1)) (m ((c : Thread nD τ).loc main_arg0))) := by
  refine (W3_arr m ρ c 2).trans ((rarr1 (V2 m ρ) c).trans ?_)
  rw [show V2 m ρ c main_call0_v2 = m ((c : Thread nD τ).loc main_arg2) from W2_v2 m ρ c,
    show V2 m ρ c main_call0_v4 = _ from W2_v4 m ρ c]
/-- The fourth weight's padded array is no array of region 1. -/
theorem W3_v3 (c : Dev nD) :
    W3 (F := Ideal) m ρ c (Proc.devRef .tc main_call0_v3) = m ((c : Thread nD τ).loc main_arg3) :=
  (W3_of_ne m ρ c main_call0_v3 (by decide)).trans (W2_v3 m ρ c)

/-! ## Region 2: w3 (w2 (w1 w0)) -/

/-- Region 2's output array at its exit: the product of the fourth weight with region 1's output. -/
theorem W4_v6 (c : Dev nD) :
    W4 (F := Ideal) m ρ c (Proc.devRef .tc main_call0_v6)
      = Cert.Spec.MM (m ((c : Thread nD τ).loc main_arg3))
          (Cert.Spec.MM (m ((c : Thread nD τ).loc main_arg2))
            (Cert.Spec.MM (m ((c : Thread nD τ).loc main_arg1)) (m ((c : Thread nD τ).loc main_arg0)))) := by
  refine (W4_arr m ρ c 2).trans ((rarr2 (V3 m ρ) c).trans ?_)
  rw [show V3 m ρ c main_call0_v3 = m ((c : Thread nD τ).loc main_arg3) from W3_v3 m ρ c,
    show V3 m ρ c main_call0_v5 = _ from W3_v5 m ρ c]

/-! ## The last host stretch: the leading axis -/

/-- The result's buffer at the last boundary is region 2's output with a leading axis of extent one in front. -/
theorem W5_v0_lift (c : Dev nD) :
    W5 (F := Ideal) m ρ c (Proc.devRef .tc main_v0)
      = Cert.Spec.lift1 (W4 (F := Ideal) m ρ c (Proc.devRef .tc main_call0_v6)) := by
  show StableHlo.after hostOps3 (W4 m ρ c) (Proc.devRef .tc main_v0) = _
  after_results
  simp only [StableHlo.TRef.ofBuf, StableHlo.TRef.toBuf, cast_eq]
  exact bcast_lift1 _ _

/-- The result's buffer at the last boundary: the leading axis in front of the product taken from the right. -/
theorem W5_main_v0 (c : Dev nD) :
    W5 (F := Ideal) m ρ c (Proc.devRef .tc main_v0)
      = Cert.Spec.lift1 (Cert.Spec.MM (m ((c : Thread nD τ).loc main_arg3))
          (Cert.Spec.MM (m ((c : Thread nD τ).loc main_arg2))
            (Cert.Spec.MM (m ((c : Thread nD τ).loc main_arg1)) (m ((c : Thread nD τ).loc main_arg0))))) :=
  (W5_v0_lift m ρ c).trans (congrArg Cert.Spec.lift1 (W4_v6 m ρ c))

/-- THE REFERENCE'S VALUE RUN: every weakly fair execution ends with the result at lift1 (w3 (w2 (w1 w0))) of the launch
    contents of the arguments, and the arguments as launched. -/
theorem run_value : θ_run (defs (F := Ideal)) (onTc (τ := τ) (main (F := Ideal))) ⟨m, fun _ => 0, ρ⟩ (fun r => ∀ c : Dev nD,
      r.2.mem ((c.tc : Thread nD τ).loc main_v0)
        = Cert.Spec.lift1 (Cert.Spec.MM (m ((c.tc : Thread nD τ).loc main_arg3))
          (Cert.Spec.MM (m ((c.tc : Thread nD τ).loc main_arg2))
            (Cert.Spec.MM (m ((c.tc : Thread nD τ).loc main_arg1)) (m ((c.tc : Thread nD τ).loc main_arg0)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W5_main_v0 m ρ c), (h c).2⟩) (run_named (F := Ideal) m ρ)

end Cert.ReferenceIdeal.Hand

end
-- ==== Proof.lean ====
/-
  The certificate of a product of four 2048 x 2048 weights, W3 W2 W1 W0, with a leading axis of extent one in front.

  The kernel multiplies as a balanced tree: two regions compute W3 W2 and W1 W0, each output block one matrix product over
  the whole contraction axis, and a third region multiplies the two; the operands are rounded to a shorter float format on
  the way in, which on the extended reals is the identity. The reference multiplies from the right, W3 (W2 (W1 W0)), each
  product by a tiled region that cuts the contraction axis into four slices and keeps a running sum between grid points.
  On the extended reals both regions' outputs are plain matrix products (sums of products: only commutativity and
  associativity of addition are used to regroup the slices). The two bracketings agree because the matrix product over the
  reals is associative; that step distributes products over sums, which fails at infinities, so it uses the precondition:
  every entry of every weight is finite, hence a real number.

  The frames: the kernel's two are generated whole; the reference's is its value run with the result dropped.
-/
import proofs.«155047_g2000509712423811_pallasbulk_371_2_alg».proof.Defs
import proofs.«155047_g2000509712423811_pallasbulk_371_2_alg».proof.Proof.Gen.Kernel
import proofs.«155047_g2000509712423811_pallasbulk_371_2_alg».proof.Proof.Gen.Kernel.Frame
import proofs.«155047_g2000509712423811_pallasbulk_371_2_alg».proof.Proof.Gen.KernelIdeal
import proofs.«155047_g2000509712423811_pallasbulk_371_2_alg».proof.Proof.Gen.KernelIdeal.Frame
import proofs.«155047_g2000509712423811_pallasbulk_371_2_alg».proof.Proof.Gen.ReferenceIdeal
import proofs.«155047_g2000509712423811_pallasbulk_371_2_alg».proof.Proof.Gen.Pre_finite_inputs
import proofs.«155047_g2000509712423811_pallasbulk_371_2_alg».proof.Proof.Spec
import proofs.«155047_g2000509712423811_pallasbulk_371_2_alg».proof.Proof.Finite
import proofs.«155047_g2000509712423811_pallasbulk_371_2_alg».proof.Proof.KComp
import proofs.«155047_g2000509712423811_pallasbulk_371_2_alg».proof.Proof.RComp
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its value run with the result dropped. -/
theorem frame_ri : Cert.frame_ReferenceIdeal := fun m ρ _ =>
  (θ_run Cert.ReferenceIdeal.defs _ _).mono (fun _ h c => (h c).2) (Cert.ReferenceIdeal.Hand.run_value m ρ)

/-- The idealization rewrote nothing. -/
theorem preserves : Cert.preserves_Kernel_KernelIdeal := trivial

/-- The kernel ends at lift1 ((w3 w2)(w1 w0)), the reference at lift1 (w3 (w2 (w1 w0))) of arguments that agree; the
    precondition makes every entry real, and there the two bracketings are one matrix. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run_value m' ρ')
  obtain ⟨h0, h1, h2, h3⟩ := Cert.Finite.allReal_of_pre _ _ _ _ (hpre c)
  rw [(hagree c).1, (hagree c).2.1, (hagree c).2.2.1, (hagree c).2.2.2]
  exact congrArg Cert.Spec.lift1 (Cert.Spec.chain_assoc _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
